-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x256 .f32 .bf16
  ∧ IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S64 : Shape := ⟨1, ![64]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : IVec S64 32) (main_v10 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v10 main_v16
  let main_c_6 : IVec S_ 32 := constantI S_ 32 0#32
  let main_v18 : IVec S64 32 := broadcastInDim S64 ![] bcast_S_S64 main_c_6
  let main_v19 : IVec S64 1 := cmpi .sge main_arg4 main_v18
  let main_c_7 : IVec S_ 32 := constantI S_ 32 256#32
  let main_v20 : IVec S64 32 := broadcastInDim S64 ![] bcast_S_S64 main_c_7
  let main_v21 : IVec S64 1 := cmpi .slt main_arg4 main_v20
  let main_v22 : IVec S64 1 := andi main_v19 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v17 main_v23
  main_v24

def fn {F : FTy → Type} [FloatOps F] (main_arg0 : FVec F S262144x256 .f32) (main_arg1 : IVec S262144x256 1) (main_arg2 : IVec S64 32) (main_arg3 : IVec S64 32) (main_arg4 : IVec S64 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_c_0 : IVec S_ 32 := constantI S_ 32 0#32
  let main_v4 : IVec S64 32 := broadcastInDim S64 ![] bcast_S_S64 main_c_0
  let main_v5 : IVec S64 1 := cmpi .sge main_arg2 main_v4
  let main_c_1 : IVec S_ 32 := constantI S_ 32 256#32
  let main_v6 : IVec S64 32 := broadcastInDim S64 ![] bcast_S_S64 main_c_1
  let main_v7 : IVec S64 1 := cmpi .slt main_arg2 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  let main_c_3 : IVec S_ 32 := constantI S_ 32 0#32
  let main_v11 : IVec S64 32 := broadcastInDim S64 ![] bcast_S_S64 main_c_3
  let main_v12 : IVec S64 1 := cmpi .sge main_arg3 main_v11
  let main_c_4 : IVec S_ 32 := constantI S_ 32 256#32
  let main_v13 : IVec S64 32 := broadcastInDim S64 ![] bcast_S_S64 main_c_4
  let main_v14 : IVec S64 1 := cmpi .slt main_arg3 main_v13
  let main_v15 : IVec S64 1 := andi main_v12 main_v14
  let main_c_5 : IVec S_ 1 := constantI S_ 1 1#1
  fn_part1 (F := F) main_arg4 main_v10 main_v15 main_c_5
-- ==== Kernel.lean ====
abbrev S262144x256 : Shape := ⟨2, ![262144, 256]⟩
abbrev S64 : Shape := ⟨1, ![64]⟩
abbrev S256 : Shape := ⟨1, ![256]⟩
abbrev S256x1 : Shape := ⟨2, ![256, 1]⟩
abbrev S1x64 : Shape := ⟨2, ![1, 64]⟩
abbrev S256x64 : Shape := ⟨2, ![256, 64]⟩
abbrev S256x192 : Shape := ⟨2, ![256, 192]⟩
abbrev S262144x64 : Shape := ⟨2, ![262144, 64]⟩
abbrev S2048x256 : Shape := ⟨2, ![2048, 256]⟩
abbrev S2048x64 : Shape := ⟨2, ![2048, 64]⟩
abbrev S2048x192 : Shape := ⟨2, ![2048, 192]⟩

abbrev nBuf : Space → Nat
  | .hbm => 26
  | .vmem => 9
  | .smem => 0
  | _ => 0

abbrev bufTy : (tb : Table) → Fin (tcTables nBuf tb) → BufTy
  | .hbm, ⟨0, _⟩ => ⟨S262144x256, .f32⟩
  | .hbm, ⟨1, _⟩ => ⟨S262144x256, .i1⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S256, .i32⟩
  | .hbm, ⟨6, _⟩ => ⟨S256x1, .i32⟩
  | .hbm, ⟨7, _⟩ => ⟨S1x64, .i32⟩
  | .hbm, ⟨8, _⟩ => ⟨S256x64, .i32⟩
  | .hbm, ⟨9, _⟩ => ⟨S256x64, .i32⟩
  | .hbm, ⟨10, _⟩ => ⟨S256x64, .i1⟩
  | .hbm, ⟨11, _⟩ => ⟨S256x64, .bf16⟩
  | .hbm, ⟨12, _⟩ => ⟨S1x64, .i32⟩
  | .hbm, ⟨13, _⟩ => ⟨S256x64, .i32⟩
  | .hbm, ⟨14, _⟩ => ⟨S256x64, .i32⟩
  | .hbm, ⟨15, _⟩ => ⟨S256x64, .i1⟩
  | .hbm, ⟨16, _⟩ => ⟨S256x64, .bf16⟩
  | .hbm, ⟨17, _⟩ => ⟨S1x64, .i32⟩
  | .hbm, ⟨18, _⟩ => ⟨S256x64, .i32⟩
  | .hbm, ⟨19, _⟩ => ⟨S256x64, .i32⟩
  | .hbm, ⟨20, _⟩ => ⟨S256x64, .i1⟩
  | .hbm, ⟨21, _⟩ => ⟨S256x64, .bf16⟩
  | .hbm, ⟨22, _⟩ => ⟨S256x192, .bf16⟩
  | .hbm, ⟨23, _⟩ => ⟨S262144x256, .i32⟩
  | .hbm, ⟨24, _⟩ => ⟨S262144x64, .f32⟩
  | .hbm, ⟨25, _⟩ => ⟨S262144x64, .f32⟩
  | .local _ .vmem, ⟨0, _⟩ => ⟨S2048x256, .f32⟩
  | .local _ .vmem, ⟨1, _⟩ => ⟨S2048x256, .f32⟩
  | .local _ .vmem, ⟨2, _⟩ => ⟨S2048x256, .i32⟩
  | .local _ .vmem, ⟨3, _⟩ => ⟨S2048x256, .i32⟩
  | .local _ .vmem, ⟨4, _⟩ => ⟨S256x192, .bf16⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S256_S256x1_0 : S256.BroadcastsInDim S256x1 (![0] : Fin 1 → Fin S256x1.rank)
  bcast_S64_S1x64_1 : S64.BroadcastsInDim S1x64 (![1] : Fin 1 → Fin S1x64.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  concatenates_S256x64_S256x64_S256x64_S256x192_d1 : Shape.Concatenates [S256x64, S256x64, S256x64] S256x192 1
  natLt_1_32 : 1 < 32
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  inb_S2048x64_S2048x64_0_0 : ∀ a, (![0, 0] : Fin 2 → Nat) a + S2048x64.size a ≤ S2048x64.size a
  h_S2048x64 : 0 < S2048x64.numel
  dot_S2048x256_S256x192_S2048x192_1_0_0_1_n_n_wf : DotDims.WF S2048x256 S256x192 S2048x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .i32 = 32 ∨ (Rect.block (s := S262144x256) S2048x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x192.size a ≤ S256x192.size a
  hwx0_2 : ∀ i : grid0.Coords, EltTy.bits .bf16 = 32 ∨ (Rect.block (s := S256x192) S256x192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S262144x64.size a
  hwx0_3 : ∀ i : grid0.Coords, EltTy.bits .f32 = 32 ∨ (Rect.block (s := S262144x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S262144x64.size a
  hwx0_4 : ∀ i : grid0.Coords, EltTy.bits .f32 = 32 ∨ (Rect.block (s := S262144x64) S2048x64.size (cc0_transform_4 i) (hinb0_4 i)).WholeWords (EltTy.packing .f32)

variable [Facts₀]

def dot_S2048x256_S256x192_S2048x192_1_0_0_1_n_n : DotDims S2048x256 S256x192 S2048x192 where
  lhsContracting := [1]
  rhsContracting := [0]
  lhsNonContracting := [0]
  rhsNonContracting := [1]
  lhsBatch := []
  rhsBatch := []
  wf := dot_S2048x256_S256x192_S2048x192_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S64 : Shape := ⟨1, ![64]⟩
abbrev S_ : Shape := ⟨0, ![]⟩
abbrev S64x1 : Shape := ⟨2, ![64, 1]⟩
abbrev S262144x64 : Shape := ⟨2, ![262144, 64]⟩

abbrev nBuf : Space → Nat
  | .hbm => 77
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .i1⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S262144x64, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S262144x64, .f32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S262144x64, .f32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S262144x64, .i1⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S262144x64, .i1⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S262144x64, .i1⟩
  | .hbm, ⟨59, _⟩ => ⟨S262144x64, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S_, .f32⟩
  | .hbm, ⟨64, _⟩ => ⟨S262144x64, .f32⟩
  | .hbm, ⟨65, _⟩ => ⟨S262144x64, .f32⟩
  | .hbm, ⟨66, _⟩ => ⟨S_, .f32⟩
  | .hbm, ⟨67, _⟩ => ⟨S262144x64, .f32⟩
  | .hbm, ⟨68, _⟩ => ⟨S262144x64, .f32⟩
  | .hbm, ⟨69, _⟩ => ⟨S262144x64, .f32⟩
  | .hbm, ⟨70, _⟩ => ⟨S_, .f32⟩
  | .hbm, ⟨71, _⟩ => ⟨S262144x64, .f32⟩
  | .hbm, ⟨72, _⟩ => ⟨S262144x64, .f32⟩
  | .hbm, ⟨73, _⟩ => ⟨S262144x64, .i1⟩
  | .hbm, ⟨74, _⟩ => ⟨S262144x64, .i1⟩
  | .hbm, ⟨75, _⟩ => ⟨S262144x64, .i1⟩
  | .hbm, ⟨76, _⟩ => ⟨S262144x64, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S262144x64 : S_.BroadcastsInDim S262144x64 (![] : Fin 0 → Fin S262144x64.rank)
  gather_S262144x256_S64x1_S262144x64_0_1_n_n_1_1_2621441_wf : GatherDims.WF S262144x256 S64x1 S262144x64 [0] [1] [] [1] [] 1 ![262144, 1]

variable [Facts₀]

def gather_S262144x256_S64x1_S262144x64_0_1_n_n_1_1_2621441 : GatherDims S262144x256 S64x1 S262144x64 where
  offsetDims := [0]
  collapsedSliceDims := [1]
  operandBatchingDims := []
  startIndicesBatchingDims := []
  startIndexMap := [1]
  indexVectorDim := 1
  sliceSizes := ![262144, 1]
  wf := gather_S262144x256_S64x1_S262144x64_0_1_n_n_1_1_2621441_wf

class Facts : Prop extends Facts₀ where

variable [Facts]
-- ==== Proof.WordFrame.lean ====
/-
  The frame of the kernel program as printed, at any float instance: its host operations build a 256 x 192
  selector table (one column per task and role, 1 at the concept column the task's index word names) and widen
  the booleans to words; one launch then walks 128 grid points, each staging a block of 2048 batch rows of the
  truth values and of the widened booleans beside the whole table, and storing two blocks of 2048 x 64 results.
  The body loads its three input blocks whole and stores each output block whole, so what a point leaves in an
  output's buffer is one payload of the point's input blocks; the launch, the staging and the write-back are the
  pipeline library's, and the argument arrays end unchanged because no host operation and no write-back touches them.
-/
import proofs.«428948_j90202903151286_3_alg».proof.Proof.Gen.Kernel.Launch
import proofs.«428948_j90202903151286_3_alg».proof.Proof.Gen.Kernel.Skeleton
import proofs.«428948_j90202903151286_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one launch -/

/-- What core `c`'s buffers hold when the launch is reached: the launch-time memory after the host operations
    that build the selector table and widen the booleans. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks the windows stage -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not the point fetched it (an
    unfetched point has the block index of the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not the point fetched it (an
    unfetched point has the block index of the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not the point fetched it (an
    unfetched point has the block index of the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole block of truth values (and of widened booleans). -/
abbrev rIn : Rect S2048x256 := Rect.unit (s := S2048x256) ![0, 0] S2048x256.size inb_S2048x256_S2048x256_0_0
/-- The whole selector table. -/
abbrev rTab : Rect S256x192 := Rect.unit (s := S256x192) ![0, 0] S256x192.size inb_S256x192_S256x192_0_0
/-- The whole block of results. -/
abbrev rOut : Rect S2048x64 := Rect.unit (s := S2048x64) ![0, 0] S2048x64.size inb_S2048x64_S2048x64_0_0

/-- The fuzzy output's buffer after the body: its one store, of the fuzzy payload of the loaded blocks. -/
def out0_3 (x0 : Vec F S2048x256 .f32) (x2 : Vec F S256x192 .bf16) : Vec F S2048x64 .f32 :=
  View.canon [⟨rOut, k0_pay5 (View.ld x0 rIn) (View.ld x2 rTab)⟩]

/-- The crisp output's buffer after the body: its one store, of the crisp payload of the loaded blocks. -/
def out0_4 (x1 : Vec F S2048x256 .i32) (x2 : Vec F S256x192 .bf16) : Vec F S2048x64 .f32 :=
  View.canon [⟨rOut, k0_pay1 (k0_pay4 (View.ld x1 rIn) (View.ld x2 rTab)) (k0_pay6 (View.ld x1 rIn) (View.ld x2 rTab)) (k0_pay7 (View.ld x1 rIn) (View.ld x2 rTab)) (Scalar.ofBits .f32 0x3F000000#32)⟩]

/-- One store of the whole block covers the buffer. -/
theorem coverOut (p0 : Vec F S2048x64 .f32) (y : S2048x64.Idx) :
    ∃ pc ∈ ([⟨rOut, p0⟩] : List (View.Piece (Elt F) S2048x64 .f32)), y ∈ pc.1.set :=
  View.cover_of_tiled [⟨rOut, p0⟩] S2048x64.size (by rfl) y

/-! ## The body's triple -/

set_option maxHeartbeats 1000000 in
/-- The body, run on whole staging buffers holding the three input blocks (and the outputs' buffers at anything),
    returns with the inputs as they were and each output's buffer at its one stored payload. -/
theorem sound_kernel (c : Dev nD) (E : Set ℕ) (i : grid0.Coords) (arg1 : Memref sig .tc .vmem S2048x256 .f32) (harg1 : arg1.IsWhole) (arg2 : Memref sig .tc .vmem S2048x256 .i32) (harg2 : arg2.IsWhole) (arg3 : Memref sig .tc .vmem S256x192 .bf16) (harg3 : arg3.IsWhole) (arg4 : Memref sig .tc .vmem S2048x64 .f32) (harg4 : arg4.IsWhole) (arg5 : Memref sig .tc .vmem S2048x64 .f32) (harg5 : arg5.IsWhole)
    (x0 : Vec F S2048x256 .f32) (x1 : Vec F S2048x256 .i32) (x2 : Vec F S256x192 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x2) ∗ owns (c : Thread nD τ) arg5 fullShare (out0_4 x1 x2)) -∗ K ⟨⟩))
      ⊢ wp frame (wpE (defs₀ (F := F)) Variants.none c none) E (cc0__r2n_kernel i arg1 harg1 arg2 harg2 arg3 harg3 arg4 harg4 arg5 harg5) K := by
  simp only [cc0__r2n_kernel_eq_skeleton]; unfold cc0__r2n_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverOut _)
  iexists _; isplitr
  swap; · iexact H4
  ipureintro
  try dsimp only
  exact View.read_writes_eq_canon _ _ _ (coverOut _)

/-! ## The launch's proof data -/

/-- On core `c`: the arrays as the launch finds them; after the body at point `t` each input's buffer at its block
    and each output's at its stored payload of the input blocks; nothing else of the core is touched, nothing is
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 2 t)
    | ⟨4, _⟩ => out0_4 (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 2 t) := by dsimp only [dats]
theorem after0_4 (c : Dev nD) (t : Fin cfg0.N) : (dats m 0 c).after 4 t = out0_4 (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every array a window stages at
    what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: its window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run argument 1 is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run argument 2 is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run argument 3 is as launched: no window stages it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run argument 4 is as launched: no window stages it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨kept_main_arg0 m r h c, kept_main_arg1 m r h c, kept_main_arg2 m r h c,
      kept_main_arg3 m r h c, kept_main_arg4 m r h c⟩) (run_main m ρ)

end Cert.Kernel.Fr

end
-- ==== Proof.IdealFrame.lean ====
/-
  The frame of the idealized kernel program, at any float instance: its host operations build a 256 x 192
  selector table (one column per task and role, 1 at the concept column the task's index word names) and widen
  the booleans to words; one launch then walks 128 grid points, each staging a block of 2048 batch rows of the
  truth values and of the widened booleans beside the whole table, and storing two blocks of 2048 x 64 results.
  The body loads its three input blocks whole and stores each output block whole, so what a point leaves in an
  output's buffer is one payload of the point's input blocks; the launch, the staging and the write-back are the
  pipeline library's, and the argument arrays end unchanged because no host operation and no write-back touches them.
-/
import proofs.«428948_j90202903151286_3_alg».proof.Proof.Gen.KernelIdeal.Launch
import proofs.«428948_j90202903151286_3_alg».proof.Proof.Gen.KernelIdeal.Skeleton
import proofs.«428948_j90202903151286_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one launch -/

/-- What core `c`'s buffers hold when the launch is reached: the launch-time memory after the host operations
    that build the selector table and widen the booleans. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks the windows stage -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not the point fetched it (an
    unfetched point has the block index of the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not the point fetched it (an
    unfetched point has the block index of the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not the point fetched it (an
    unfetched point has the block index of the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- The whole block of truth values (and of widened booleans). -/
abbrev rIn : Rect S2048x256 := Rect.unit (s := S2048x256) ![0, 0] S2048x256.size inb_S2048x256_S2048x256_0_0
/-- The whole selector table. -/
abbrev rTab : Rect S256x192 := Rect.unit (s := S256x192) ![0, 0] S256x192.size inb_S256x192_S256x192_0_0
/-- The whole block of results. -/
abbrev rOut : Rect S2048x64 := Rect.unit (s := S2048x64) ![0, 0] S2048x64.size inb_S2048x64_S2048x64_0_0

/-- The fuzzy output's buffer after the body: its one store, of the fuzzy payload of the loaded blocks. -/
def out0_3 (x0 : Vec F S2048x256 .f32) (x2 : Vec F S256x192 .bf16) : Vec F S2048x64 .f32 :=
  View.canon [⟨rOut, k0_pay5 (View.ld x0 rIn) (View.ld x2 rTab)⟩]

/-- The crisp output's buffer after the body: its one store, of the crisp payload of the loaded blocks. -/
def out0_4 (x1 : Vec F S2048x256 .i32) (x2 : Vec F S256x192 .bf16) : Vec F S2048x64 .f32 :=
  View.canon [⟨rOut, k0_pay1 (k0_pay4 (View.ld x1 rIn) (View.ld x2 rTab)) (k0_pay6 (View.ld x1 rIn) (View.ld x2 rTab)) (k0_pay7 (View.ld x1 rIn) (View.ld x2 rTab)) (Scalar.ofBits .f32 0x3F000000#32)⟩]

/-- One store of the whole block covers the buffer. -/
theorem coverOut (p0 : Vec F S2048x64 .f32) (y : S2048x64.Idx) :
    ∃ pc ∈ ([⟨rOut, p0⟩] : List (View.Piece (Elt F) S2048x64 .f32)), y ∈ pc.1.set :=
  View.cover_of_tiled [⟨rOut, p0⟩] S2048x64.size (by rfl) y

/-! ## The body's triple -/

set_option maxHeartbeats 1000000 in
/-- The body, run on whole staging buffers holding the three input blocks (and the outputs' buffers at anything),
    returns with the inputs as they were and each output's buffer at its one stored payload. -/
theorem sound_kernel (c : Dev nD) (E : Set ℕ) (i : grid0.Coords) (arg1 : Memref sig .tc .vmem S2048x256 .f32) (harg1 : arg1.IsWhole) (arg2 : Memref sig .tc .vmem S2048x256 .i32) (harg2 : arg2.IsWhole) (arg3 : Memref sig .tc .vmem S256x192 .bf16) (harg3 : arg3.IsWhole) (arg4 : Memref sig .tc .vmem S2048x64 .f32) (harg4 : arg4.IsWhole) (arg5 : Memref sig .tc .vmem S2048x64 .f32) (harg5 : arg5.IsWhole)
    (x0 : Vec F S2048x256 .f32) (x1 : Vec F S2048x256 .i32) (x2 : Vec F S256x192 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x2) ∗ owns (c : Thread nD τ) arg5 fullShare (out0_4 x1 x2)) -∗ K ⟨⟩))
      ⊢ wp frame (wpE (defs₀ (F := F)) Variants.none c none) E (cc0__r2n_kernel i arg1 harg1 arg2 harg2 arg3 harg3 arg4 harg4 arg5 harg5) K := by
  simp only [cc0__r2n_kernel_eq_skeleton]; unfold cc0__r2n_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (coverOut _)
  iexists _; isplitr
  swap; · iexact H4
  ipureintro
  try dsimp only
  exact View.read_writes_eq_canon _ _ _ (coverOut _)

/-! ## The launch's proof data -/

/-- On core `c`: the arrays as the launch finds them; after the body at point `t` each input's buffer at its block
    and each output's at its stored payload of the input blocks; nothing else of the core is touched, nothing is
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 2 t)
    | ⟨4, _⟩ => out0_4 (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 2 t) := by dsimp only [dats]
theorem after0_4 (c : Dev nD) (t : Fin cfg0.N) : (dats m 0 c).after 4 t = out0_4 (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every array a window stages at
    what the proof data computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run argument 0 is as launched: its window stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run argument 1 is as launched: no window stages it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
/-- After the run argument 2 is as launched: no window stages it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run argument 3 is as launched: no window stages it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run argument 4 is as launched: no window stages it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨kept_main_arg0 m r h c, kept_main_arg1 m r h c, kept_main_arg2 m r h c,
      kept_main_arg3 m r h c, kept_main_arg4 m r h c⟩) (run_main m ρ)

end Cert.KernelIdeal.Fr

end
-- ==== Proof.Rule.lean ====
/-
  The rule every task evaluates, as functions of the argument arrays read index by index.

  A task t names three concept columns by the words i(t), j(t), k(t).  On the fuzzy side it combines the three
  truth values x[b, i(t)], x[b, j(t)], x[b, k(t)] of batch row b as Or(And(a, b), Not(c)) in the product t-norm:
  And is the product, Not is 1 - c, Or(u, v) is 1 - (1 - u)(1 - v).  On the crisp side it combines the three
  booleans the same way with the boolean connectives and reads the resulting bit as a number.

  A word in the range [0, 256) names the column of its value; `col` is total (it reduces modulo 256) so that the
  functions below are defined for every word, and the range facts are carried as hypotheses where they matter.
  The selector table has one column per task and per role (192 = 3 x 64): entry (c, s) is 1 when c is the column
  that slot s names and 0 otherwise, so that a row of truth values times the table picks the named entries.
-/
import Idealize.ShloMosaic.PureOps.Ideal
import Idealize.ShloMosaic.Lib.ValueIdx

noncomputable section

namespace Cert.Rule

open Idealize.ShloMosaic Idealize.ShloMosaic.ValueIdx

/-- The concept arrays: 262144 batch rows of 256 columns. -/
abbrev SX : Shape := ⟨2, ![262144, 256]⟩
/-- One index word per task. -/
abbrev ST : Shape := ⟨1, ![64]⟩
/-- The results: one value per batch row and task. -/
abbrev SO : Shape := ⟨2, ![262144, 64]⟩
/-- The selector table: 256 columns by 192 slots. -/
abbrev STab : Shape := ⟨2, ![256, 192]⟩

/-- The column a word names. -/
def col (w : BitVec 32) : Fin 256 := ⟨w.toNat % 256, Nat.mod_lt _ (by decide)⟩

theorem col_val {w : BitVec 32} (h : w.toNat < 256) : (col w).val = w.toNat := Nat.mod_eq_of_lt h

/-- Every word of the array is in [0, 256). -/
def InRange (w : ST.Idx → BitVec 32) : Prop := ∀ t, (w t).toNat < 256

/-- Every entry is a real number. -/
def Finite {S : Shape} (x : S.Idx → EReal) : Prop := ∀ i, ∃ r : ℝ, x i = (r : EReal)

/-- The float one, as both programs spell it. -/
abbrev one : EReal := Ideal.ofBits .f32 0x3F800000#32

/-- Or(And(a, b), Not(c)) in the product t-norm. -/
def ruleVal (a b c : EReal) : EReal := one - (one - a * b) * (one - (one - c))

/-- The fuzzy result at batch row `o 0` and task `o 1`. -/
def emb (x : SX.Idx → EReal) (ii jj kk : ST.Idx → BitVec 32) : SO.Idx → EReal := fun o =>
  ruleVal (x (ix2 (o 0) (col (ii (ix1 (o 1)))))) (x (ix2 (o 0) (col (jj (ix1 (o 1))))))
    (x (ix2 (o 0) (col (kk (ix1 (o 1))))))

/-- Or(And(a, b), Not(c)) on bits, read as a number. -/
def ruleBit (a b c : BitVec 1) : EReal := ((((a &&& b) ||| ~~~c).toNat : ℝ) : EReal)

/-- The crisp result at batch row `o 0` and task `o 1`. -/
def crisp (cb : SX.Idx → BitVec 1) (ii jj kk : ST.Idx → BitVec 32) : SO.Idx → EReal := fun o =>
  ruleBit (cb (ix2 (o 0) (col (ii (ix1 (o 1)))))) (cb (ix2 (o 0) (col (jj (ix1 (o 1))))))
    (cb (ix2 (o 0) (col (kk (ix1 (o 1))))))

/-- The word slot `s` of the selector table stands for: slots 0..63 the first role, 64..127 the second, 128..191 the third. -/
def selWord (ii jj kk : ST.Idx → BitVec 32) (s : Fin 192) : BitVec 32 :=
  if h : s.val < 64 then ii (ix1 ⟨s.val, h⟩)
  else if h' : s.val < 128 then jj (ix1 ⟨s.val - 64, by omega⟩)
  else kk (ix1 ⟨s.val - 128, by omega⟩)

/-- The selector table: 1 where the row is the column the slot names, 0 elsewhere. -/
def sel (ii jj kk : ST.Idx → BitVec 32) : STab.Idx → EReal := fun i =>
  if (i 0).val = (selWord ii jj kk (i 1)).toNat then 1 else 0

end Cert.Rule

end
-- ==== Proof.LibNary.lean ====
/-
  A host operation over a LITERAL family of three or of six references (a concatenation of three or of six operands)
  read at its result buffer: the operation's function applied to each operand's contents AT ITS OWN REFERENCE, so that a
  run that is read back one operation at a time can go on rewriting the operands' contents. The library states this for
  a family of four references; these are the same statement for three and for six, proved the same way, each also in
  the form a simplifier pass uses (the result reference not indexed).
-/
import Idealize.ShloMosaic.Lib.StableHlo.Run

noncomputable section

namespace Cert.Lib

open Idealize.ShloMosaic Idealize.ShloMosaic.StableHlo

variable {τ : Topo} {sig : RefSig} {Val : EltTy → Type}
variable {x a b c d e y : Ref sig .tc}

/-- A three-operand operation's result: its function of the three operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A six-operand operation's result: its function of the six operands' contents, each at its own reference. -/
theorem nary6_result
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [nary_result]; congr 1; funext k; fin_cases k <;> rfl

/-- The same, for a simplifier pass. -/
theorem nary6_result'
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) :=
  nary6_result f hxs hy F

end Cert.Lib

end
-- ==== Proof.HostTable.lean ====
/-
  What the host operations in front of the kernel's one call compute, read index by index.

  The table: an iota over the 256 rows is broadcast along the columns and compared for equality with each of the three
  word arrays broadcast down the rows; each comparison bit is converted to a number, and the three 256 x 64 pieces are
  laid side by side along the columns. Entry (r, s) of the result is therefore the number of the bit "r, as a 32-bit
  word, equals the word that slot s stands for", slot s standing for word s of the first array when s < 64, word s - 64
  of the second when s < 128 and word s - 128 of the third otherwise. Since r < 256, the word of r equals a word w
  exactly when r is the value of w, so the table is the selector table of the three arrays: 1 where the row is the
  column the slot names, 0 elsewhere.

  The booleans: the last host operation zero-extends each one-bit entry of the boolean argument to a 32-bit word.
-/
import proofs.«428948_j90202903151286_3_alg».proof.Proof.Gen.KernelIdeal.Launch
import proofs.«428948_j90202903151286_3_alg».proof.Proof.LibNary
import proofs.«428948_j90202903151286_3_alg».proof.Proof.Rule
import Idealize.ShloMosaic.Lib.StableHlo.Run
import Idealize.ShloMosaic.Lib.ValueIdx
import Idealize.ShloMosaic.Lib.Pipeline.Value
import Idealize.ShloMosaic.Lib.IdealHost

noncomputable section

namespace Cert.HostTable

open Cert.KernelIdeal Cert.KernelIdeal.Gen Cert.Rule Idealize.ShloMosaic Idealize.ShloMosaic.TcCoe
open Idealize.ShloMosaic.ValueIdx Idealize.SL.Sem
open Idealize.ShloMosaic.StableHlo (after_cons after_nil nullary_result' unary_result' binary_result' nullary_result_ne' unary_result_ne'
  binary_result_ne' nary_result_ne')

/-- A word below 256 written as a 32-bit word equals another word exactly when it is that word's value. -/
theorem ofNat_eq_iff (r : Fin 256) (w : BitVec 32) : BitVec.ofNat 32 r.val = w ↔ r.val = w.toNat := by
  have hr := r.isLt
  constructor
  · intro h
    have := congrArg BitVec.toNat h
    rw [BitVec.toNat_ofNat] at this
    omega
  · intro h
    apply BitVec.eq_of_toNat_eq
    rw [BitVec.toNat_ofNat]
    omega

/-- The comparison bit of two words, converted to a number: 1 when they are equal, 0 otherwise. -/
theorem bit_eq_val {w : Nat} (a b : BitVec w) :
    ((((IntOp.cmpi .eq a b).toNat : ℝ)) : EReal) = if a = b then 1 else 0 := by
  by_cases h : a = b
  · subst h
    rw [if_pos rfl]
    simp [IntOp.cmpi]
  · rw [if_neg h]
    simp [IntOp.cmpi, h]

/-- One piece of the table read at row `r` and column `t`: the row number broadcast along the columns is compared
    with the word array broadcast down the rows, and the bit is converted to a number. -/
theorem piece_apply (h0 : S256.BroadcastsInDim S256x1 (![0] : Fin 1 → Fin S256x1.rank))
    (h1 : S64.BroadcastsInDim S1x64 (![1] : Fin 1 → Fin S1x64.rank))
    (h2 : S256x1.BroadcastsInDim S256x64 (![0, 1] : Fin 2 → Fin S256x64.rank))
    (h3 : S1x64.BroadcastsInDim S256x64 (![0, 1] : Fin 2 → Fin S256x64.rank))
    (w : S64.Idx → BitVec 32) (r : Fin 256) (t : Fin 64) :
    (uitofp (F := Ideal) .bf16 (cmpi .eq
        (broadcastInDim S256x64 ![0, 1] h2 (broadcastInDim S256x1 ![0] h0 (iotaInDim S256 32 0)))
        (broadcastInDim S256x64 ![0, 1] h3 (broadcastInDim S1x64 ![1] h1 w))) : S256x64.Idx → EReal) (ix2 r t)
      = if r.val = (w (ix1 t)).toNat then 1 else 0 := by
  have e1 : broadcastInDim S256x64 ![0, 1] h2 (broadcastInDim S256x1 ![0] h0 (iotaInDim S256 32 0)) (ix2 r t)
      = BitVec.ofNat 32 r.val := by
    rw [broadcastInDim_apply _ h2 _ (ix2 r t) (ix2 r (0 : Fin 1)) (fun a => match a with
        | ⟨0, _⟩ => by show r.val = if (256 : Nat) = 1 then 0 else r.val; rw [if_neg (by decide)]
        | ⟨1, _⟩ => by show (0 : Nat) = if (1 : Nat) = 1 then 0 else t.val; rw [if_pos rfl]),
      broadcastInDim_apply _ h0 _ (ix2 r (0 : Fin 1)) (ix1 r) (fun a => match a with
        | ⟨0, _⟩ => by show r.val = if (256 : Nat) = 1 then 0 else r.val; rw [if_neg (by decide)])]
    rfl
  have e2 : broadcastInDim S256x64 ![0, 1] h3 (broadcastInDim S1x64 ![1] h1 w) (ix2 r t) = w (ix1 t) := by
    rw [broadcastInDim_apply _ h3 _ (ix2 r t) (ix2 (0 : Fin 1) t) (fun a => match a with
        | ⟨0, _⟩ => by show (0 : Nat) = if (1 : Nat) = 1 then 0 else r.val; rw [if_pos rfl]
        | ⟨1, _⟩ => by show t.val = if (64 : Nat) = 1 then 0 else t.val; rw [if_neg (by decide)]),
      broadcastInDim_apply _ h1 _ (ix2 (0 : Fin 1) t) (ix1 t) (fun a => match a with
        | ⟨0, _⟩ => by show t.val = if (64 : Nat) = 1 then 0 else t.val; rw [if_neg (by decide)])]
  show ((((IntOp.cmpi .eq
      (broadcastInDim S256x64 ![0, 1] h2 (broadcastInDim S256x1 ![0] h0 (iotaInDim S256 32 0)) (ix2 r t))
      (broadcastInDim S256x64 ![0, 1] h3 (broadcastInDim S1x64 ![1] h1 w) (ix2 r t))).toNat : ℝ)) : EReal) = _
  rw [e1, e2, bit_eq_val]
  exact if_congr (ofNat_eq_iff r _) rfl rfl

variable (m : (ℓ : Loc nD τ sig) → Buf (Elt Ideal) ℓ) (c : Dev nD)

/-- The widened booleans: the last host operation zero-extends the boolean argument to 32-bit words. -/
theorem bools_eq : (StableHlo.after (hostOps0 (F := Ideal)) (fun b => m (c, b)) (Proc.devRef .tc main_v18) : S262144x256.Idx → BitVec 32)
    = fun i => (m ((c : Thread nD τ).loc main_arg1) i).setWidth 32 := by
  after_results
  rfl

/-- The table the host operations build is the selector table of the three word arrays: the concatenation along the
    columns of three 256 x 64 pieces, piece `p` holding at (r, t) the number of the bit "r is the value of word t of the
    p-th array". -/
theorem table_eq : (StableHlo.after (hostOps0 (F := Ideal)) (fun b => m (c, b)) (Proc.devRef .tc main_v17) : S256x192.Idx → EReal)
    = sel (m ((c : Thread nD τ).loc main_arg2)) (m ((c : Thread nD τ).loc main_arg3)) (m ((c : Thread nD τ).loc main_arg4)) := by
  simp (disch := decide) only [after_cons, after_nil, nullary_result', unary_result', binary_result', Cert.Lib.nary3_result',
    nullary_result_ne', unary_result_ne', binary_result_ne', nary_result_ne']
  funext i
  obtain ⟨r, s, rfl⟩ : ∃ r s, i = ix2 r s := ⟨i 0, i 1, eq_ix2 i⟩
  have hs := s.isLt
  by_cases h1 : s.val < 64
  · -- the first piece: slots 0 .. 63
    refine (concatenate_apply_piece (t := S256x192) 1 _ _ (ix2 r s) 0 ?_ S256x64 _ rfl rfl 0 rfl
      (ix2 r ⟨s.val, h1⟩) ?_ ?_).trans ?_
    · show (0 : Nat) < 3; decide
    · exact fun b hb => match b, hb with | ⟨0, _⟩, _ => rfl | ⟨1, _⟩, hb => absurd rfl hb
    · show 0 + (⟨s.val, h1⟩ : Fin 64).val = s.val
      simp only []; omega
    simp (disch := decide) only [nullary_result', unary_result', binary_result',
      nullary_result_ne', unary_result_ne', binary_result_ne', nary_result_ne']
    refine (piece_apply _ _ _ _ _ r ⟨s.val, h1⟩).trans ?_
    show _ = if r.val = (selWord _ _ _ s).toNat then 1 else 0
    rw [selWord, dif_pos h1]
  by_cases h2 : s.val < 128
  · -- the second piece: slots 64 .. 127
    refine (concatenate_apply_piece (t := S256x192) 1 _ _ (ix2 r s) 1 ?_ S256x64 _ rfl rfl 64 rfl
      (ix2 r ⟨s.val - 64, by omega⟩) ?_ ?_).trans ?_
    · show (1 : Nat) < 3; decide
    · exact fun b hb => match b, hb with | ⟨0, _⟩, _ => rfl | ⟨1, _⟩, hb => absurd rfl hb
    · show 64 + (⟨s.val - 64, by omega⟩ : Fin 64).val = s.val
      simp only []; omega
    simp (disch := decide) only [nullary_result', unary_result', binary_result',
      nullary_result_ne', unary_result_ne', binary_result_ne', nary_result_ne']
    refine (piece_apply _ _ _ _ _ r ⟨s.val - 64, by omega⟩).trans ?_
    show _ = if r.val = (selWord _ _ _ s).toNat then 1 else 0
    rw [selWord, dif_neg h1, dif_pos h2]
  · -- the third piece: slots 128 .. 191
    refine (concatenate_apply_piece (t := S256x192) 1 _ _ (ix2 r s) 2 ?_ S256x64 _ rfl rfl 128 rfl
      (ix2 r ⟨s.val - 128, by omega⟩) ?_ ?_).trans ?_
    · show (2 : Nat) < 3; decide
    · exact fun b hb => match b, hb with | ⟨0, _⟩, _ => rfl | ⟨1, _⟩, hb => absurd rfl hb
    · show 128 + (⟨s.val - 128, by omega⟩ : Fin 64).val = s.val
      simp only []; omega
    simp (disch := decide) only [nullary_result', unary_result', binary_result',
      nullary_result_ne', unary_result_ne', binary_result_ne', nary_result_ne']
    refine (piece_apply _ _ _ _ _ r ⟨s.val - 128, by omega⟩).trans ?_
    show _ = if r.val = (selWord _ _ _ s).toNat then 1 else 0
    rw [selWord, dif_neg h1, dif_neg h2]

end Cert.HostTable
end
-- ==== Proof.PayEmb.lean ====
/-
  The fuzzy payload of the kernel body, read at one batch row and one task.

  The body splits its block of truth values three ways (the value, a first correction x - x, a second correction
  (x - x) - (x - x)), multiplies each part by the selector table and adds the three products.  At the ideal values a
  change of float format is the identity, so on a real-valued block both corrections are the zero block and their
  products vanish; the first product, a sum over the 256 columns of the row against a table column that is 1 at one
  row and 0 elsewhere, picks the named entry of the row.  The three column slices at offsets 0, 64 and 128 read the
  slots of the three roles, and the remaining arithmetic is the rule's expression.
-/
import proofs.«428948_j90202903151286_3_alg».proof.Proof.Gen.KernelIdeal.Skeleton
import proofs.«428948_j90202903151286_3_alg».proof.Proof.Rule
import Idealize.ShloMosaic.Lib.ValueIdx
import Idealize.ShloMosaic.Lib.Pipeline.Value
import Idealize.ShloMosaic.PureOps.Ideal.Laws

noncomputable section

namespace Cert.PayEmb

open Cert.KernelIdeal Cert.KernelIdeal.Gen Cert.Rule Idealize.ShloMosaic Idealize.ShloMosaic.ValueIdx

/-! ## A row against a one-hot column -/

/-- A sum of products with a column that is 1 at position `n` and 0 elsewhere is the factor at `n`. -/
theorem sum_mul_indicator (a : Fin 256 → EReal) (n : ℕ) (h : n < 256) :
    ∑ c : Fin 256, a c * (if c.val = n then (1 : EReal) else 0) = a ⟨n, h⟩ := by
  rw [Finset.sum_eq_single (⟨n, h⟩ : Fin 256)]
  · rw [if_pos rfl, mul_one]
  · intro c _ hc
    rw [if_neg (fun e => hc (Fin.ext e)), mul_zero]
  · intro hn
    exact absurd (Finset.mem_univ _) hn

/-- A sum of products whose left factors are all zero is zero. -/
theorem sum_zero_mul (b : Fin 256 → EReal) : ∑ c : Fin 256, (0 : EReal) * b c = 0 :=
  Finset.sum_eq_zero fun c _ => zero_mul (b c)

/-! ## The words the slots stand for -/

/-- Every slot's word is in range when the three index arrays are. -/
theorem selWord_lt {ii jj kk : ST.Idx → BitVec 32} (hi : InRange ii) (hj : InRange jj) (hk : InRange kk) (s : Fin 192) :
    (selWord ii jj kk s).toNat < 256 := by
  unfold selWord
  split
  · exact hi _
  · split
    · exact hj _
    · exact hk _

/-- Slot `q` stands for the first role's word of task `q`. -/
theorem selWord_first (ii jj kk : ST.Idx → BitVec 32) (q : Fin 64) (h : q.val < 192) :
    selWord ii jj kk ⟨q.val, h⟩ = ii (ix1 q) := by
  unfold selWord
  rw [dif_pos (show (⟨q.val, h⟩ : Fin 192).val < 64 from q.isLt)]

/-- Slot `64 + q` stands for the second role's word of task `q`. -/
theorem selWord_second (ii jj kk : ST.Idx → BitVec 32) (q : Fin 64) (h : 64 + q.val < 192) :
    selWord ii jj kk ⟨64 + q.val, h⟩ = jj (ix1 q) := by
  unfold selWord
  rw [dif_neg (show ¬(⟨64 + q.val, h⟩ : Fin 192).val < 64 from by show ¬64 + q.val < 64; omega),
    dif_pos (show (⟨64 + q.val, h⟩ : Fin 192).val < 128 from by show 64 + q.val < 128; omega)]
  exact congrArg (fun t => jj (ix1 t)) (Fin.ext (by show 64 + q.val - 64 = q.val; omega))

/-- Slot `128 + q` stands for the third role's word of task `q`. -/
theorem selWord_third (ii jj kk : ST.Idx → BitVec 32) (q : Fin 64) (h : 128 + q.val < 192) :
    selWord ii jj kk ⟨128 + q.val, h⟩ = kk (ix1 q) := by
  unfold selWord
  rw [dif_neg (show ¬(⟨128 + q.val, h⟩ : Fin 192).val < 64 from by show ¬128 + q.val < 64; omega),
    dif_neg (show ¬(⟨128 + q.val, h⟩ : Fin 192).val < 128 from by show ¬128 + q.val < 128; omega)]
  exact congrArg (fun t => kk (ix1 t)) (Fin.ext (by show 128 + q.val - 128 = q.val; omega))

/-! ## The product with the table, read at a row and a slot -/

/-- The left operand's row coordinate is the result's row. -/
theorem lhs_row (i : S2048x192.Idx) (q : dot_S2048x256_S256x192_S2048x192_1_0_0_1_n_n.contr.Idx) :
    (dot_S2048x256_S256x192_S2048x192_1_0_0_1_n_n.lhsIdx i q 0).val = (i 0).val := by
  unfold DotDims.lhsIdx
  rw [dif_neg (show ¬(0 : Fin S2048x256.rank) ∈ dot_S2048x256_S256x192_S2048x192_1_0_0_1_n_n.lhsBatch by decide),
    dif_pos (show (0 : Fin S2048x256.rank) ∈ dot_S2048x256_S256x192_S2048x192_1_0_0_1_n_n.lhsNonContracting by decide)]
  rfl

/-- The left operand's column coordinate is the contracted coordinate. -/
theorem lhs_col (i : S2048x192.Idx) (q : dot_S2048x256_S256x192_S2048x192_1_0_0_1_n_n.contr.Idx) :
    (dot_S2048x256_S256x192_S2048x192_1_0_0_1_n_n.lhsIdx i q 1).val = (q ⟨0, by decide⟩).val :=
  dot_S2048x256_S256x192_S2048x192_1_0_0_1_n_n.lhsIdx_val_of_single rfl i q

/-- The table's row coordinate is the contracted coordinate. -/
theorem rhs_row (i : S2048x192.Idx) (q : dot_S2048x256_S256x192_S2048x192_1_0_0_1_n_n.contr.Idx) :
    (dot_S2048x256_S256x192_S2048x192_1_0_0_1_n_n.rhsIdx i q 0).val = (q ⟨0, by decide⟩).val :=
  dot_S2048x256_S256x192_S2048x192_1_0_0_1_n_n.rhsIdx_val_of_single rfl i q

/-- The table's column coordinate is the result's slot. -/
theorem rhs_col (i : S2048x192.Idx) (q : dot_S2048x256_S256x192_S2048x192_1_0_0_1_n_n.contr.Idx) :
    (dot_S2048x256_S256x192_S2048x192_1_0_0_1_n_n.rhsIdx i q 1).val = (i 1).val := by
  unfold DotDims.rhsIdx
  rw [dif_neg (show ¬(1 : Fin S256x192.rank) ∈ dot_S2048x256_S256x192_S2048x192_1_0_0_1_n_n.rhsBatch by decide),
    dif_pos (show (1 : Fin S256x192.rank) ∈ dot_S2048x256_S256x192_S2048x192_1_0_0_1_n_n.rhsNonContracting by decide)]
  rfl

/-- A product of any block with any table into the zero accumulator, at row `p` and slot `s`: the sum over the 256
    columns of the row's entry times the table's entry. -/
theorem matmul_apply_at {φ₁ φ₂ : FTy} (lhs : FVec Ideal S2048x256 φ₁) (rhs : FVec Ideal S256x192 φ₂) (p : Fin 2048) (s : Fin 192) :
    matmul dot_S2048x256_S256x192_S2048x192_1_0_0_1_n_n none lhs rhs (constant S2048x192 .f32 0x00000000#32) (ix2 p s)
      = ∑ c : Fin 256, lhs (ix2 p c) * rhs (ix2 c s) := by
  simp only [matmul]
  rw [Ideal.matmul_constant_zero_apply,
    ← Equiv.sum_comp (contrEquiv1 dot_S2048x256_S256x192_S2048x192_1_0_0_1_n_n 256 rfl rfl).symm]
  refine Finset.sum_congr rfl fun c _ => ?_
  have hc := contrEquiv1_symm_val dot_S2048x256_S256x192_S2048x192_1_0_0_1_n_n 256 rfl rfl c
  have el : dot_S2048x256_S256x192_S2048x192_1_0_0_1_n_n.lhsIdx (ix2 p s)
      ((contrEquiv1 dot_S2048x256_S256x192_S2048x192_1_0_0_1_n_n 256 rfl rfl).symm c) = ix2 p c := funext fun a => Fin.ext (by
    match a with
    | ⟨0, _⟩ => exact lhs_row _ _
    | ⟨1, _⟩ => exact (lhs_col _ _).trans hc)
  have er : dot_S2048x256_S256x192_S2048x192_1_0_0_1_n_n.rhsIdx (ix2 p s)
      ((contrEquiv1 dot_S2048x256_S256x192_S2048x192_1_0_0_1_n_n 256 rfl rfl).symm c) = ix2 c s := funext fun a => Fin.ext (by
    match a with
    | ⟨0, _⟩ => exact (rhs_row _ _).trans hc
    | ⟨1, _⟩ => exact rhs_col _ _)
  rw [el, er]

/-! ## The three column slices -/

/-- The slice at column offset 0 reads slot `q`. -/
theorem slice_first (v : FVec Ideal S2048x192 .f32) (h : S2048x192.Slices ![0, 0] S2048x64) (p : Fin 2048) (q : Fin 64) :
    extractStridedSlice S2048x64 ![0, 0] v h (ix2 p q) = v (ix2 p ⟨q.val, Nat.lt_of_lt_of_le q.isLt (by decide)⟩) :=
  extractStridedSlice_apply _ v h (ix2 p q) (ix2 p ⟨q.val, Nat.lt_of_lt_of_le q.isLt (by decide)⟩) (fun a => by
    match a with
    | ⟨0, _⟩ => show p.val = 0 + p.val; omega
    | ⟨1, _⟩ => show q.val = 0 + q.val; omega)

/-- The slice at column offset 64 reads slot `64 + q`. -/
theorem slice_second (v : FVec Ideal S2048x192 .f32) (h : S2048x192.Slices ![0, 64] S2048x64) (p : Fin 2048) (q : Fin 64) :
    extractStridedSlice S2048x64 ![0, 64] v h (ix2 p q)
      = v (ix2 p ⟨64 + q.val, by have := q.isLt; omega⟩) :=
  extractStridedSlice_apply _ v h (ix2 p q) (ix2 p ⟨64 + q.val, by have := q.isLt; omega⟩) (fun a => by
    match a with
    | ⟨0, _⟩ => show p.val = 0 + p.val; omega
    | ⟨1, _⟩ => rfl)

/-- The slice at column offset 128 reads slot `128 + q`. -/
theorem slice_third (v : FVec Ideal S2048x192 .f32) (h : S2048x192.Slices ![0, 128] S2048x64) (p : Fin 2048) (q : Fin 64) :
    extractStridedSlice S2048x64 ![0, 128] v h (ix2 p q)
      = v (ix2 p ⟨128 + q.val, by have := q.isLt; omega⟩) :=
  extractStridedSlice_apply _ v h (ix2 p q) (ix2 p ⟨128 + q.val, by have := q.isLt; omega⟩) (fun a => by
    match a with
    | ⟨0, _⟩ => show p.val = 0 + p.val; omega
    | ⟨1, _⟩ => rfl)

/-! ## The three products added: the named entry of the row -/

/-- On a real-valued block the value's product with the table plus the two corrections' products is, at row `p` and
    slot `s`, the row's entry at the column the slot's word names. -/
theorem gathered_apply (x0 : FVec Ideal S2048x256 .f32) (ii jj kk : ST.Idx → BitVec 32)
    (hx : ∀ i, ∃ r : ℝ, x0 i = (r : EReal)) (hi : InRange ii) (hj : InRange jj) (hk : InRange kk)
    (h1 h2 h3 : FTy.bits .bf16 < FTy.bits .f32) (p : Fin 2048) (s : Fin 192) :
    addf
        (addf
          (matmul dot_S2048x256_S256x192_S2048x192_1_0_0_1_n_n none (truncf .bf16 x0 h1)
            (k0_pay2 (F := Ideal) (sel ii jj kk)) (constant S2048x192 .f32 0x00000000#32))
          (matmul dot_S2048x256_S256x192_S2048x192_1_0_0_1_n_n none (truncf .bf16 (subf x0 x0) h2)
            (k0_pay2 (F := Ideal) (sel ii jj kk)) (constant S2048x192 .f32 0x00000000#32)))
        (matmul dot_S2048x256_S256x192_S2048x192_1_0_0_1_n_n none (truncf .bf16 (subf (subf x0 x0) (subf x0 x0)) h3)
          (k0_pay2 (F := Ideal) (sel ii jj kk)) (constant S2048x192 .f32 0x00000000#32)) (ix2 p s)
      = x0 (ix2 p (col (selWord ii jj kk s))) := by
  have hz : subf (F := Ideal) x0 x0 = fun _ => (0 : EReal) := funext fun i => by
    obtain ⟨r, hr⟩ := hx i
    show x0 i - x0 i = 0
    rw [hr, ← EReal.coe_sub, sub_self, EReal.coe_zero]
  have hzz : subf (F := Ideal) (s := S2048x256) (φ := .f32) (fun _ => (0 : EReal)) (fun _ => (0 : EReal)) = fun _ => (0 : EReal) :=
    funext fun i => by show (0 : EReal) - 0 = 0; exact sub_zero _
  have htab : ∀ c : Fin 256, k0_pay2 (F := Ideal) (sel ii jj kk) (ix2 c s)
      = if c.val = (selWord ii jj kk s).toNat then (1 : EReal) else 0 := fun c => by
    unfold k0_pay2
    rw [shapeCast_self]
    rfl
  rw [addf_apply, addf_apply, matmul_apply_at, matmul_apply_at, matmul_apply_at, hz, hzz]
  simp only [truncf_apply, htab]
  rw [sum_zero_mul, add_zero, add_zero, sum_mul_indicator (fun c => x0 (ix2 p c)) _ (selWord_lt hi hj hk s)]
  exact congrArg (fun t => x0 (ix2 p t)) (Fin.ext (col_val (selWord_lt hi hj hk s)).symm)

/-! ## The payload -/

/-- The fuzzy payload at row `p` and task `q` is the rule's value on the three named entries of the row. -/
theorem pay_emb (x0 : Vec Ideal S2048x256 .f32) (ii jj kk : ST.Idx → BitVec 32)
    (hx : ∀ i, ∃ r : ℝ, x0 i = (r : EReal)) (hi : InRange ii) (hj : InRange jj) (hk : InRange kk)
    (p : Fin 2048) (q : Fin 64) :
    k0_pay5 (F := Ideal) x0 (sel ii jj kk) (ix2 p q)
      = ruleVal (x0 (ix2 p (col (ii (ix1 q))))) (x0 (ix2 p (col (jj (ix1 q))))) (x0 (ix2 p (col (kk (ix1 q))))) := by
  unfold k0_pay5
  simp only [subf_apply, mulf_apply, broadcast_apply, slice_first, slice_second, slice_third]
  rw [gathered_apply x0 ii jj kk hx hi hj hk, gathered_apply x0 ii jj kk hx hi hj hk,
    gathered_apply x0 ii jj kk hx hi hj hk, selWord_first, selWord_second, selWord_third]
  rfl

end Cert.PayEmb

end
-- ==== Proof.PayCrisp.lean ====
/-
  The crisp side of the kernel's body at one result element.

  The block of booleans arrives widened to 32-bit words. The body compares each word with zero (the bit again), reads the
  bit as the number 0 or 1, and multiplies the 2048 x 256 block of those numbers with the 256 x 192 selector table. Entry
  (p, s) of the product is the sum over the 256 columns c of bit(p, c) times table(c, s); the table's column s is 1 at the
  one column slot s names and 0 elsewhere, so the sum is the number of the bit at that column. The three column slices at
  offsets 0, 64 and 128 read slots q, 64 + q and 128 + q, whose words are the task's three words. "That number is above one
  half" gives the bit back; and, exclusive-or with the set bit (the complement) and or on bits are the rule's connectives;
  and the resulting bit, widened and read as a signed integer, is its number.
-/
import proofs.«428948_j90202903151286_3_alg».proof.Proof.Gen.KernelIdeal.Skeleton
import proofs.«428948_j90202903151286_3_alg».proof.Proof.Rule
import Idealize.ShloMosaic.Lib.ValueIdx
import Idealize.ShloMosaic.Lib.ValueLayout
import Idealize.ShloMosaic.Lib.Pipeline.Value
import Idealize.ShloMosaic.PureOps.Ideal.Laws

noncomputable section

namespace Cert.PayCrisp

open Cert.KernelIdeal Cert.KernelIdeal.Gen Cert.Rule Idealize.ShloMosaic Idealize.ShloMosaic.ValueIdx

/-- The float literal one half. -/
theorem half_eq : Ideal.ofBits .f32 0x3F000000#32 = ((1 / 2 : ℝ) : EReal) := by
  simp [Ideal.ofBits, Ideal.ieee, -EReal.coe_mul]
  norm_num

/-- A bit's number is above one half exactly when the bit is set. -/
theorem gt_half (b : BitVec 1) : Ideal.cmp .ogt ((b.toNat : ℝ) : EReal) (Ideal.ofBits .f32 0x3F000000#32) = b := by
  rw [half_eq]
  rcases BitVec.eq_zero_or_eq_one b with h | h <;> subst h
  · have h0 : ((0#1 : BitVec 1).toNat : ℝ) = 0 := by simp
    have : ¬ (((1 / 2 : ℝ) : EReal) < (((0#1 : BitVec 1).toNat : ℝ) : EReal)) := by
      rw [h0, EReal.coe_lt_coe_iff]; norm_num
    simp only [Ideal.cmp, this, decide_false]; rfl
  · have h1 : ((1#1 : BitVec 1).toNat : ℝ) = 1 := by simp
    have : (((1 / 2 : ℝ) : EReal) < (((1#1 : BitVec 1).toNat : ℝ) : EReal)) := by
      rw [h1, EReal.coe_lt_coe_iff]; norm_num
    simp only [Ideal.cmp, this, decide_true]; rfl

/-- A widened bit is not the zero word exactly when the bit is set. -/
theorem ne_zero_widen (b : BitVec 1) : IntOp.cmpi .ne (b.setWidth 32) 0#32 = b := by
  rcases BitVec.eq_zero_or_eq_one b with h | h <;> subst h <;> decide

/-- A bit widened to a word and read as a signed integer is the bit's number. -/
theorem widen_toInt (b : BitVec 1) : (((b.setWidth 32).toInt : ℝ) : EReal) = ((b.toNat : ℝ) : EReal) := by
  rcases BitVec.eq_zero_or_eq_one b with h | h <;> subst h <;> simp

/-! The matmul's operand indices, axis by axis: the left operand is read at (row, contraction), the right one at
(contraction, column). -/

theorem lhs_0 (j : S2048x192.Idx) (k : dot_S2048x256_S256x192_S2048x192_1_0_0_1_n_n.contr.Idx) :
    (dot_S2048x256_S256x192_S2048x192_1_0_0_1_n_n.lhsIdx j k 0).val = (j 0).val := rfl
theorem lhs_1 (j : S2048x192.Idx) (k : dot_S2048x256_S256x192_S2048x192_1_0_0_1_n_n.contr.Idx) :
    (dot_S2048x256_S256x192_S2048x192_1_0_0_1_n_n.lhsIdx j k 1).val = (k ⟨0, by decide⟩).val := rfl
theorem rhs_0 (j : S2048x192.Idx) (k : dot_S2048x256_S256x192_S2048x192_1_0_0_1_n_n.contr.Idx) :
    (dot_S2048x256_S256x192_S2048x192_1_0_0_1_n_n.rhsIdx j k 0).val = (k ⟨0, by decide⟩).val := rfl
theorem rhs_1 (j : S2048x192.Idx) (k : dot_S2048x256_S256x192_S2048x192_1_0_0_1_n_n.contr.Idx) :
    (dot_S2048x256_S256x192_S2048x192_1_0_0_1_n_n.rhsIdx j k 1).val = (j 1).val := rfl

/-- The matmul of the 0/1 block with a table, read at (row p, slot s): the sum over the 256 columns of the bit's number
times the table's entry. The block's entry is the widened bit compared with the zero word (the bit again), widened and
read as a signed integer (the bit's number); the change of float format is the identity. -/
theorem pay3_apply (cbk : S2048x256.Idx → BitVec 1) (T : FVec Ideal S256x192 .bf16) (p : Fin 2048) (s : Fin 192) :
    k0_pay3 (F := Ideal) (fun i => (cbk i).setWidth 32) T (ix2 p s)
      = ∑ c : Fin 256, (((cbk (ix2 p c)).toNat : ℝ) : EReal) * T (ix2 c s) := by
  unfold k0_pay3 k0_pay2
  rw [shapeCast_self]
  dsimp only
  refine (Ideal.matmul_constant_zero_apply (φ₁ := .bf16) (φ₂ := .bf16)
    dot_S2048x256_S256x192_S2048x192_1_0_0_1_n_n none _ T (ix2 p s)).trans ?_
  rw [← Equiv.sum_comp (contrEquiv1 dot_S2048x256_S256x192_S2048x192_1_0_0_1_n_n 256 rfl rfl).symm]
  refine Finset.sum_congr rfl fun c _ => ?_
  have hl : dot_S2048x256_S256x192_S2048x192_1_0_0_1_n_n.lhsIdx (ix2 p s)
      ((contrEquiv1 dot_S2048x256_S256x192_S2048x192_1_0_0_1_n_n 256 rfl rfl).symm c) = ix2 p c := by
    funext a; refine Fin.ext ?_
    match a with
    | ⟨0, _⟩ => exact lhs_0 _ _
    | ⟨1, _⟩ => exact (lhs_1 _ _).trans (contrEquiv1_symm_val _ 256 rfl rfl c)
  have hr : dot_S2048x256_S256x192_S2048x192_1_0_0_1_n_n.rhsIdx (ix2 p s)
      ((contrEquiv1 dot_S2048x256_S256x192_S2048x192_1_0_0_1_n_n 256 rfl rfl).symm c) = ix2 c s := by
    funext a; refine Fin.ext ?_
    match a with
    | ⟨0, _⟩ => exact (rhs_0 _ _).trans (contrEquiv1_symm_val _ 256 rfl rfl c)
    | ⟨1, _⟩ => exact rhs_1 _ _
  rw [hl, hr]
  show ((((IntOp.cmpi .ne ((cbk (ix2 p c)).setWidth 32) 0#32).setWidth 32).toInt : ℝ) : EReal) * _ = _
  rw [ne_zero_widen, widen_toInt]

/-- Every slot's word is in range when the three word arrays are. -/
theorem selWord_lt (ii jj kk : ST.Idx → BitVec 32) (hi : InRange ii) (hj : InRange jj) (hk : InRange kk) (s : Fin 192) :
    (selWord ii jj kk s).toNat < 256 := by
  unfold selWord
  split
  · exact hi _
  · split
    · exact hj _
    · exact hk _

/-- A row of bit numbers times the selector table picks the one entry at the column the slot names: the table's column is
1 there and 0 elsewhere. -/
theorem sum_sel (cbk : S2048x256.Idx → BitVec 1) (ii jj kk : ST.Idx → BitVec 32) (p : Fin 2048) (s : Fin 192)
    (h : (selWord ii jj kk s).toNat < 256) :
    ∑ c : Fin 256, (((cbk (ix2 p c)).toNat : ℝ) : EReal) * sel ii jj kk (ix2 c s)
      = (((cbk (ix2 p (col (selWord ii jj kk s)))).toNat : ℝ) : EReal) := by
  rw [Finset.sum_eq_single (col (selWord ii jj kk s))]
  · have h1 : sel ii jj kk (ix2 (col (selWord ii jj kk s)) s) = 1 := by
      unfold sel; exact if_pos (col_val h)
    rw [h1, mul_one]
  · intro c _ hc
    have h0 : sel ii jj kk (ix2 c s) = 0 := by
      unfold sel
      exact if_neg (fun e => hc (Fin.ext (e.trans (col_val h).symm)))
    rw [h0, mul_zero]
  · intro hn; exact absurd (Finset.mem_univ _) hn

/-- The matmul with the selector table at (row p, slot s) is the number of the bit at the column the slot names. -/
theorem pay3_sel (cbk : S2048x256.Idx → BitVec 1) (ii jj kk : ST.Idx → BitVec 32)
    (hi : InRange ii) (hj : InRange jj) (hk : InRange kk) (p : Fin 2048) (s : Fin 192) :
    k0_pay3 (F := Ideal) (fun i => (cbk i).setWidth 32) (sel ii jj kk) (ix2 p s)
      = (((cbk (ix2 p (col (selWord ii jj kk s)))).toNat : ℝ) : EReal) :=
  (pay3_apply cbk (sel ii jj kk) p s).trans (sum_sel cbk ii jj kk p s (selWord_lt ii jj kk hi hj hk s))

/-! The three groups of slots: slot q names the first role's word, slot 64 + q the second's, slot 128 + q the third's. -/

theorem selWord_0 (ii jj kk : ST.Idx → BitVec 32) (q : Fin 64) (h : 0 + q.val < 192) :
    selWord ii jj kk ⟨0 + q.val, h⟩ = ii (ix1 q) := by
  have hq := q.isLt
  unfold selWord
  dsimp only
  rw [dif_pos (show 0 + q.val < 64 by omega)]
  exact congrArg (fun t => ii (ix1 t)) (Fin.ext (Nat.zero_add _))

theorem selWord_64 (ii jj kk : ST.Idx → BitVec 32) (q : Fin 64) (h : 64 + q.val < 192) :
    selWord ii jj kk ⟨64 + q.val, h⟩ = jj (ix1 q) := by
  have hq := q.isLt
  unfold selWord
  dsimp only
  rw [dif_neg (show ¬ 64 + q.val < 64 by omega), dif_pos (show 64 + q.val < 128 by omega)]
  exact congrArg (fun t => jj (ix1 t)) (Fin.ext (show 64 + q.val - 64 = q.val by omega))

theorem selWord_128 (ii jj kk : ST.Idx → BitVec 32) (q : Fin 64) (h : 128 + q.val < 192) :
    selWord ii jj kk ⟨128 + q.val, h⟩ = kk (ix1 q) := by
  have hq := q.isLt
  unfold selWord
  dsimp only
  rw [dif_neg (show ¬ 128 + q.val < 64 by omega), dif_neg (show ¬ 128 + q.val < 128 by omega)]
  exact congrArg (fun t => kk (ix1 t)) (Fin.ext (show 128 + q.val - 128 = q.val by omega))

/-- One half as the kernel's scalar constant spells it. -/
theorem gt_half' (b : BitVec 1) :
    Ideal.cmp .ogt ((b.toNat : ℝ) : EReal) (Scalar.ofBits (F := Ideal) .f32 0x3F000000#32) = b := gt_half b

/-- The first slice (slots 0..63) compared with one half at (p, q): the bit at the first role's column. -/
theorem pay6_apply (cbk : S2048x256.Idx → BitVec 1) (ii jj kk : ST.Idx → BitVec 32)
    (hi : InRange ii) (hj : InRange jj) (hk : InRange kk) (p : Fin 2048) (q : Fin 64) :
    k0_pay6 (F := Ideal) (fun i => (cbk i).setWidth 32) (sel ii jj kk) (ix2 p q) = cbk (ix2 p (col (ii (ix1 q)))) := by
  unfold k0_pay6
  show Ideal.cmp .ogt (extractStridedSlice S2048x64 ![0, 0] (k0_pay3 (F := Ideal) _ _) slices_S2048x192_o0_0_S2048x64 (ix2 p q))
    (Scalar.ofBits (F := Ideal) .f32 0x3F000000#32) = _
  rw [slice2_axis1_eq 0 _ slices_S2048x192_o0_0_S2048x64 p q, pay3_sel cbk ii jj kk hi hj hk, selWord_0, gt_half']

/-- The second slice (slots 64..127) compared with one half at (p, q): the bit at the second role's column. -/
theorem pay7_apply (cbk : S2048x256.Idx → BitVec 1) (ii jj kk : ST.Idx → BitVec 32)
    (hi : InRange ii) (hj : InRange jj) (hk : InRange kk) (p : Fin 2048) (q : Fin 64) :
    k0_pay7 (F := Ideal) (fun i => (cbk i).setWidth 32) (sel ii jj kk) (ix2 p q) = cbk (ix2 p (col (jj (ix1 q)))) := by
  unfold k0_pay7
  show Ideal.cmp .ogt (extractStridedSlice S2048x64 ![0, 64] (k0_pay3 (F := Ideal) _ _) slices_S2048x192_o0_64_S2048x64 (ix2 p q))
    (Scalar.ofBits (F := Ideal) .f32 0x3F000000#32) = _
  rw [slice2_axis1_eq 64 _ slices_S2048x192_o0_64_S2048x64 p q, pay3_sel cbk ii jj kk hi hj hk, selWord_64, gt_half']

/-- The third slice (slots 128..191) at (p, q): the number of the bit at the third role's column. -/
theorem pay4_apply (cbk : S2048x256.Idx → BitVec 1) (ii jj kk : ST.Idx → BitVec 32)
    (hi : InRange ii) (hj : InRange jj) (hk : InRange kk) (p : Fin 2048) (q : Fin 64) :
    k0_pay4 (F := Ideal) (fun i => (cbk i).setWidth 32) (sel ii jj kk) (ix2 p q)
      = (((cbk (ix2 p (col (kk (ix1 q))))).toNat : ℝ) : EReal) := by
  unfold k0_pay4
  rw [slice2_axis1_eq 128 _ slices_S2048x192_o0_128_S2048x64 p q, pay3_sel cbk ii jj kk hi hj hk, selWord_128]

/-- The last payload at an index: the third value compared with the scalar, negated by the exclusive or with the set bit,
joined by or with the and of the two bits, widened and read as a signed integer. -/
theorem pay1_apply (v26 : FVec Ideal S2048x64 .f32) (v38 v40 : IVec S2048x64 1) (h : Ideal .f32) (i : S2048x64.Idx) :
    k0_pay1 (F := Ideal) v26 v38 v40 h i
      = (((((v38 i &&& v40 i) ||| (Ideal.cmp .ogt (v26 i) h ^^^ 1#1)).setWidth 32).toInt : ℝ) : EReal) := rfl

/-- The exclusive or with the set bit is the complement. -/
theorem xor_one (c : BitVec 1) : c ^^^ 1#1 = ~~~c := by
  rcases BitVec.eq_zero_or_eq_one c with h | h <;> subst h <;> decide

/-- The crisp payload at (p, q) is the rule on the three bits the task's words name, read as a number. -/
theorem pay_crisp (cbk : S2048x256.Idx → BitVec 1) (ii jj kk : ST.Idx → BitVec 32)
    (hi : InRange ii) (hj : InRange jj) (hk : InRange kk) (p : Fin 2048) (q : Fin 64) :
    k0_pay1 (F := Ideal) (k0_pay4 (F := Ideal) (fun i => (cbk i).setWidth 32) (sel ii jj kk))
        (k0_pay6 (F := Ideal) (fun i => (cbk i).setWidth 32) (sel ii jj kk))
        (k0_pay7 (F := Ideal) (fun i => (cbk i).setWidth 32) (sel ii jj kk)) (Scalar.ofBits .f32 0x3F000000#32) (ix2 p q)
      = ruleBit (cbk (ix2 p (col (ii (ix1 q))))) (cbk (ix2 p (col (jj (ix1 q))))) (cbk (ix2 p (col (kk (ix1 q))))) := by
  rw [pay1_apply, pay6_apply cbk ii jj kk hi hj hk, pay7_apply cbk ii jj kk hi hj hk, pay4_apply cbk ii jj kk hi hj hk,
    gt_half', widen_toInt, xor_one]
  rfl

end Cert.PayCrisp

end
-- ==== Proof.KValue.lean ====
/-
  From blocks to arrays, for the idealized kernel at the ideal instance.  Grid point t stages rows 2048 t .. 2048 t + 2047
  of the truth values and of the widened booleans, and always the whole selector table; what it writes back to each
  result is the body's payload of those blocks.  On real truth values and index words in [0, 256) the fuzzy payload
  at (p, q) is the product-t-norm rule of the three entries of row p that task q names, and the crisp payload the
  boolean rule of the three booleans there; so point t writes back block t of the two rule arrays, the 128 blocks
  tile the 262144 rows (row r lies in block r / 2048), and after the run each result IS its rule array.
-/
import proofs.«428948_j90202903151286_3_alg».proof.Proof.IdealFrame
import proofs.«428948_j90202903151286_3_alg».proof.Proof.Rule
import proofs.«428948_j90202903151286_3_alg».proof.Proof.HostTable
import proofs.«428948_j90202903151286_3_alg».proof.Proof.PayEmb
import proofs.«428948_j90202903151286_3_alg».proof.Proof.PayCrisp
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.Rule
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five argument arrays of core `c`. -/
abbrev xs (c : Dev nD) : SX.Idx → EReal := m ((c : Thread nD τ).loc main_arg0)
abbrev bs (c : Dev nD) : SX.Idx → BitVec 1 := m ((c : Thread nD τ).loc main_arg1)
abbrev wi (c : Dev nD) : ST.Idx → BitVec 32 := m ((c : Thread nD τ).loc main_arg2)
abbrev wj (c : Dev nD) : ST.Idx → BitVec 32 := m ((c : Thread nD τ).loc main_arg3)
abbrev wk (c : Dev nD) : ST.Idx → BitVec 32 := m ((c : Thread nD τ).loc main_arg4)

theorem hz : (![0, 0] : Fin 2 → Nat) = fun _ => 0 := funext fun a => by fin_cases a <;> rfl

/-- The block index maps over the 128 grid points: the row blocks follow the point, the table stays put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := by
  have h1 := t.isLt
  have h2 : cfg0.N = 128 := N_0
  omega

/-- Row `p` of point `t`'s block is batch row `2048 t + p`. -/
def row (t : Fin cfg0.N) (p : Fin 2048) : Fin 262144 := ⟨t.val * 2048 + p.val, by have := point_lt t; omega⟩

/-! ## The input blocks -/

/-- The table's window always stages the whole table. -/
theorem tab_blk (c : Dev nD) (t : Fin cfg0.N) : (iblk m c 2 t : S256x192.Idx → EReal) = sel (wi m c) (wj m c) (wk m c) := by
  rw [← Cert.HostTable.table_eq m c]
  funext y
  show V m c main_v17 (((cfg0.win 2).blk t).view.emb y) = V m c main_v17 y
  obtain ⟨e0, e1, e2, e3, e4, e5, e6, e7, e8, e9⟩ := idx_facts t
  congr 1
  funext a; apply Fin.ext
  match a with
  | ⟨0, _⟩ => show win0_2.index t (0 : Fin 2) * 256 + 1 * (y 0).val = (y 0).val; omega
  | ⟨1, _⟩ => show win0_2.index t (1 : Fin 2) * 192 + 1 * (y 1).val = (y 1).val; omega

/-- The truth values' block at point `t`: rows `2048 t ..` of the argument. -/
theorem x_blk (c : Dev nD) (t : Fin cfg0.N) (p : Fin 2048) (cc : Fin 256) :
    (iblk m c 0 t : S2048x256.Idx → EReal) (ix2 p cc) = xs m c (ix2 (row t p) cc) := by
  show V m c main_arg0 (((cfg0.win 0).blk t).view.emb (ix2 p cc)) = _
  rw [V_main_arg0]
  obtain ⟨e0, e1, e2, e3, e4, e5, e6, e7, e8, e9⟩ := idx_facts t
  congr 1
  funext a; apply Fin.ext
  match a with
  | ⟨0, _⟩ => show win0_0.index t (0 : Fin 2) * 2048 + 1 * p.val = t.val * 2048 + p.val; omega
  | ⟨1, _⟩ => show win0_0.index t (1 : Fin 2) * 256 + 1 * cc.val = cc.val; omega

/-- The booleans' block at point `t`, before widening. -/
def bblk (c : Dev nD) (t : Fin cfg0.N) : S2048x256.Idx → BitVec 1 := fun y => bs m c (((cfg0.win 1).blk t).view.emb y)

theorem b_blk (c : Dev nD) (t : Fin cfg0.N) (p : Fin 2048) (cc : Fin 256) :
    bblk m c t (ix2 p cc) = bs m c (ix2 (row t p) cc) := by
  unfold bblk
  obtain ⟨e0, e1, e2, e3, e4, e5, e6, e7, e8, e9⟩ := idx_facts t
  congr 1
  funext a; apply Fin.ext
  match a with
  | ⟨0, _⟩ => show win0_1.index t (0 : Fin 2) * 2048 + 1 * p.val = t.val * 2048 + p.val; omega
  | ⟨1, _⟩ => show win0_1.index t (1 : Fin 2) * 256 + 1 * cc.val = cc.val; omega

/-- The staged block of widened booleans is the booleans' block, widened. -/
theorem w_blk (c : Dev nD) (t : Fin cfg0.N) : (iblk m c 1 t : S2048x256.Idx → BitVec 32) = fun y => (bblk m c t y).setWidth 32 := by
  funext y
  show V m c main_v18 (((cfg0.win 1).blk t).view.emb y) = _
  exact congrFun (Cert.HostTable.bools_eq m c) _

/-- Entry `(p, q)` of an output block at point `t` is entry `(2048 t + p, q)` of the array. -/
theorem out3_emb (t : Fin cfg0.N) (p : Fin 2048) (q : Fin 64) :
    (((cfg0.win 3).blk t).view.emb (ix2 p q) : SO.Idx) = ix2 (row t p) q := by
  obtain ⟨e0, e1, e2, e3, e4, e5, e6, e7, e8, e9⟩ := idx_facts t
  funext a; apply Fin.ext
  match a with
  | ⟨0, _⟩ => show win0_3.index t (0 : Fin 2) * 2048 + 1 * p.val = t.val * 2048 + p.val; omega
  | ⟨1, _⟩ => show win0_3.index t (1 : Fin 2) * 64 + 1 * q.val = q.val; omega
theorem out4_emb (t : Fin cfg0.N) (p : Fin 2048) (q : Fin 64) :
    (((cfg0.win 4).blk t).view.emb (ix2 p q) : SO.Idx) = ix2 (row t p) q := by
  obtain ⟨e0, e1, e2, e3, e4, e5, e6, e7, e8, e9⟩ := idx_facts t
  funext a; apply Fin.ext
  match a with
  | ⟨0, _⟩ => show win0_4.index t (0 : Fin 2) * 2048 + 1 * p.val = t.val * 2048 + p.val; omega
  | ⟨1, _⟩ => show win0_4.index t (1 : Fin 2) * 64 + 1 * q.val = q.val; omega

/-! ## What each point writes back -/

/-- Point `t` writes back block `t` of the fuzzy rule of the argument arrays. -/
theorem flushed3_eq (c : Dev nD) (hx : Finite (xs m c)) (hi : InRange (wi m c)) (hj : InRange (wj m c)) (hk : InRange (wk m c)) (t : Fin cfg0.N) :
    (dats m 0 c).flushed 3 t = ((cfg0.win 3).blk t).view.read (Elt Ideal) (emb (xs m c) (wi m c) (wj m c) (wk m c)) := by
  show (cfg0.win 3).cut (grid0.coords t) ((dats m 0 c).after 3 t) = _
  rw [after0_3]
  unfold out0_3
  rw [View.canon_unit_zero hz]
  simp only [View.ld_unit_zero (S := S2048x256) hz, View.ld_unit_zero (S := S256x192) hz]
  funext j
  obtain ⟨p, q, rfl⟩ : ∃ (p : Fin 2048) (q : Fin 64), j = ix2 p q := ⟨j 0, j 1, eq_ix2 j⟩
  show k0_pay5 (F := Ideal) (iblk m c 0 t) (iblk m c 2 t) (ix2 p q) = emb (xs m c) (wi m c) (wj m c) (wk m c) (((cfg0.win 3).blk t).view.emb (ix2 p q))
  rw [out3_emb, tab_blk]
  refine (Cert.PayEmb.pay_emb (iblk m c 0 t) (wi m c) (wj m c) (wk m c) (fun y => ?_) hi hj hk p q).trans ?_
  · obtain ⟨a, b, rfl⟩ : ∃ (a : Fin 2048) (b : Fin 256), y = ix2 a b := ⟨y 0, y 1, eq_ix2 y⟩
    rw [x_blk]; exact hx _
  · rw [x_blk, x_blk, x_blk]; rfl

/-- Point `t` writes back block `t` of the crisp rule of the argument arrays. -/
theorem flushed4_eq (c : Dev nD) (hi : InRange (wi m c)) (hj : InRange (wj m c)) (hk : InRange (wk m c)) (t : Fin cfg0.N) :
    (dats m 0 c).flushed 4 t = ((cfg0.win 4).blk t).view.read (Elt Ideal) (crisp (bs m c) (wi m c) (wj m c) (wk m c)) := by
  show (cfg0.win 4).cut (grid0.coords t) ((dats m 0 c).after 4 t) = _
  rw [after0_4]
  unfold out0_4
  rw [View.canon_unit_zero hz]
  simp only [View.ld_unit_zero (S := S2048x256) hz, View.ld_unit_zero (S := S256x192) hz]
  funext j
  obtain ⟨p, q, rfl⟩ : ∃ (p : Fin 2048) (q : Fin 64), j = ix2 p q := ⟨j 0, j 1, eq_ix2 j⟩
  show k0_pay1 (F := Ideal) (k0_pay4 (iblk m c 1 t) (iblk m c 2 t)) (k0_pay6 (iblk m c 1 t) (iblk m c 2 t)) (k0_pay7 (iblk m c 1 t) (iblk m c 2 t)) (Scalar.ofBits .f32 0x3F000000#32) (ix2 p q)
    = crisp (bs m c) (wi m c) (wj m c) (wk m c) (((cfg0.win 4).blk t).view.emb (ix2 p q))
  rw [out4_emb, tab_blk, w_blk]
  refine (Cert.PayCrisp.pay_crisp (bblk m c t) (wi m c) (wj m c) (wk m c) hi hj hk p q).trans ?_
  rw [b_blk, b_blk, b_blk]; rfl

/-! ## The blocks tile the arrays -/

theorem mem_blk3 (t : Fin cfg0.N) (i : S262144x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v19_0).slice (win0_3.rect t)).set ↔ _
  rw [View.set_slice_whole, Rect.mem_set_unit]
  exact Iff.rfl
theorem mem_blk4 (t : Fin cfg0.N) (i : S262144x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v19_1).slice (win0_4.rect t)).set ↔ _
  rw [View.set_slice_whole, Rect.mem_set_unit]
  exact Iff.rfl

/-- Batch row `r` lies in the block of point `r / 2048`. -/
theorem cover3 (i : S262144x64.Idx) : ∃ t : Fin cfg0.N, (cfg0.win 3).flush t = true ∧ i ∈ ((cfg0.win 3).blk t).view.set := by
  have hi0 : (i 0).val < 262144 := (i 0).isLt
  have hi1 : (i 1).val < 64 := (i 1).isLt
  have hN : cfg0.N = 128 := N_0
  let t : Fin cfg0.N := ⟨(i 0).val / 2048, by omega⟩
  have ht : t.val = (i 0).val / 2048 := rfl
  refine ⟨t, flush0_3 t, ?_⟩
  rw [mem_blk3]
  obtain ⟨e0, e1, e2, e3, e4, e5, e6, e7, e8, e9⟩ := idx_facts t
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 64 ≤ (i 1).val ∧ (i 1).val < win0_3.index t (1 : Fin 2) * 64 + 64; omega
theorem cover4 (i : S262144x64.Idx) : ∃ t : Fin cfg0.N, (cfg0.win 4).flush t = true ∧ i ∈ ((cfg0.win 4).blk t).view.set := by
  have hi0 : (i 0).val < 262144 := (i 0).isLt
  have hi1 : (i 1).val < 64 := (i 1).isLt
  have hN : cfg0.N = 128 := N_0
  let t : Fin cfg0.N := ⟨(i 0).val / 2048, by omega⟩
  have ht : t.val = (i 0).val / 2048 := rfl
  refine ⟨t, flush0_4 t, ?_⟩
  rw [mem_blk4]
  obtain ⟨e0, e1, e2, e3, e4, e5, e6, e7, e8, e9⟩ := idx_facts t
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-! ## The arrays after the run -/

theorem final3 (c : Dev nD) (hx : Finite (xs m c)) (hi : InRange (wi m c)) (hj : InRange (wj m c)) (hk : InRange (wk m c)) :
    (dats m 0 c).arrAt 3 cfg0.N = emb (xs m c) (wi m c) (wj m c) (wk m c) :=
  (dats m 0 c).arrAt_eq_of_cover 3 _ (fun t _ => flushed3_eq m c hx hi hj hk t) cover3
theorem final4 (c : Dev nD) (hi : InRange (wi m c)) (hj : InRange (wj m c)) (hk : InRange (wk m c)) :
    (dats m 0 c).arrAt 4 cfg0.N = crisp (bs m c) (wi m c) (wj m c) (wk m c) :=
  (dats m 0 c).arrAt_eq_of_cover 4 _ (fun t _ => flushed4_eq m c hi hj hk t) cover4

/-- The run, read: on real truth values and index words in range, the two results are the fuzzy and the crisp rule
    of the argument arrays, and the arguments end unchanged. -/
theorem run (hx : ∀ c, Finite (xs m c)) (hi : ∀ c, InRange (wi m c)) (hj : ∀ c, InRange (wj m c)) (hk : ∀ c, InRange (wk m c)) :
    θ_run defs (onTc (τ := τ) (main (F := Ideal))) ⟨m, fun _ => 0, ρ⟩ fun r => ∀ c : Dev nD,
      r.2.mem ((c : Thread nD τ).loc main_v19_0) = emb (xs m c) (wi m c) (wj m c) (wk m c)
      ∧ r.2.mem ((c : Thread nD τ).loc main_v19_1) = crisp (bs m c) (wi m c) (wj m c) (wk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 3).trans (final3 m c (hx c) (hi c) (hj c) (hk c)),
      ((h c).1 4).trans (final4 m c (hi c) (hj c) (hk c)),
      kept_main_arg0 m r h c, kept_main_arg1 m r h c, kept_main_arg2 m r h c, kept_main_arg3 m r h c, kept_main_arg4 m r h c⟩)
    (run_main m ρ)

end Cert.KernelIdeal.Val

end
-- ==== Proof.LibGatherCols.lean ====
/-
  A column gather read at an index.

  jnp's `x[:, idx]` over a rank-2 array `x : [R, N]` at a vector `idx` of `E` column numbers prints as a
  `stablehlo.gather` whose start indices are the [E, 1] column of those numbers: the result's axis 0 is the one
  offset axis (offset_dims = [0]) and runs over the whole first axis of the operand (slice sizes [R, 1]), the
  operand's axis 1 is collapsed (collapsed_slice_dims = [1]) and is the one axis a start index names
  (start_index_map = [1]), and the index vector lies along axis 1 of the start indices (index_vector_dim = 1).
  Result element (b, e) is therefore the operand at row b and at the column start index e names, that index read as a
  signed integer and clamped into [0, N - 1], as StableHLO clamps every start index so that the slice fits.
-/
import Idealize.ShloMosaic.Lib.ValueIdx

noncomputable section

namespace Cert.Lib

open Idealize.ShloMosaic Idealize.ShloMosaic.ValueIdx

/-- THE COLUMN GATHER AT (b, e). For an operand [R, N], start indices [E, 1] and a result [R, E], with the printed
    dimension numbers (`hoff` … `hivd`, each by `rfl` on a program's record; the slice sizes are not asked for: the
    collapsed axis has slice size 1 by the record's own conditions, and on axis 0 the slice starts at 0 whatever its
    size), the gather reads the operand at row `b` and at column `min (idx[e, 0] read signed) (N - 1)`. -/
theorem gather_cols {α : Type} {R N E w : Nat} (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![E, 1]⟩ w) (b : Fin R) (e : Fin E) (hN : 0 < N) :
    Host.gather d x idx (ix2 b e)
      = x (ix2 b ⟨min (idx (ix2 e (0 : Fin 1))).toInt.toNat (N - 1), by omega⟩) := by
  unfold Host.gather
  congr 1
  funext a
  apply Fin.ext
  have hb : ∀ a : Fin 2, a ∉ d.operandBatchingDims := fun a => by rw [hob]; exact List.not_mem_nil
  have h01 : (0 : Fin 2) ≠ 1 := fun h => Nat.zero_ne_one (congrArg Fin.val h)
  match a with
  | ⟨0, _⟩ =>
    -- axis 0: no start index names it, it is not a batching axis, and it is the one kept axis, read by offset axis 0
    have hm : (0 : Fin 2) ∉ d.startIndexMap := by rw [hsim]; exact fun h => h01 (List.mem_singleton.mp h)
    have hk : (0 : Fin 2) ∈ d.sKept := by
      rw [GatherDims.mem_sKept, hcoll]; exact ⟨fun h => h01 (List.mem_singleton.mp h), hb 0⟩
    have hod : ∀ (k : Nat) (h : k < d.offsetDims.length), d.offsetDims[k] = (0 : Fin 2) := fun k h => by
      rw [List.getElem_of_eq hoff h]; exact List.getElem_singleton _
    show d.start (ix2 b e) idx 0 + d.batchCoord (ix2 b e) 0 + d.offCoord (ix2 b e) 0 = b.val
    unfold GatherDims.start GatherDims.offCoord
    rw [dif_neg hm, dif_pos hk, GatherDims.batchCoord_eq_zero _ _ _ (hb 0), hod]
    simp only [Nat.zero_add]
  | ⟨1, _⟩ =>
    -- axis 1: collapsed (slice size 1, no offset), not batching, and the one axis the start index names
    have hm : (1 : Fin 2) ∈ d.startIndexMap := by rw [hsim]; exact List.mem_singleton.mpr rfl
    have hc : (1 : Fin 2) ∈ d.collapsedSliceDims := by rw [hcoll]; exact List.mem_singleton.mpr rfl
    have hk : (1 : Fin 2) ∉ d.sKept := fun h => ((GatherDims.mem_sKept _ _).mp h).1 hc
    have hsl : d.sliceSizes 1 = 1 := d.slice_collapsed 1 hc
    have hbd : ∀ (k : Nat) (h : k < d.batchDims.length), d.batchDims[k] = (1 : Fin 2) := fun k h => by
      have h1 : d.batchDims = [1] := by
        show Shape.kept _ d.offsetDims = [1]
        rw [hoff]; rfl
      rw [List.getElem_of_eq h1 h]; exact List.getElem_singleton _
    show d.start (ix2 b e) idx 1 + d.batchCoord (ix2 b e) 1 + d.offCoord (ix2 b e) 1 = min (idx (ix2 e (0 : Fin 1))).toInt.toNat (N - 1)
    unfold GatherDims.start
    rw [dif_pos hm, GatherDims.batchCoord_eq_zero _ _ _ (hb 1), GatherDims.offCoord_eq_zero _ _ _ hk]
    simp only [Nat.add_zero]
    show min (idx _).toInt.toNat (N - d.sliceSizes 1) = _
    rw [hsl]
    congr 3
    congr 1
    funext c
    match c with
    | ⟨0, _⟩ =>
      -- the start indices' axis 0 is read at the result's one batch axis, axis 1
      unfold GatherDims.siIdx
      rw [dif_neg (by rw [hivd]; exact Nat.zero_ne_one)]
      unfold GatherDims.siCoord
      apply Fin.ext
      simp only [Fin.val_cast]
      rw [hbd]
    | ⟨1, _⟩ =>
      -- the index vector's axis: component 0 of the start index, the position of axis 1 in the start index map
      unfold GatherDims.siIdx
      rw [dif_pos (by rw [hivd])]
      apply Fin.ext
      show List.idxOf (1 : Fin 2) d.startIndexMap = 0
      rw [hsim]; exact List.idxOf_cons_self

end Cert.Lib

end
-- ==== Proof.RefRule.lean ====
/-
  The reference computes the rule.

  The reference gathers, for each of the three roles, the columns the tasks name (jnp's x[:, idx]) and combines them
  elementwise. Each index array is first normalised as jnp does (a negative index counts from the end: idx + 256 where
  idx < 0), laid out as a [64, 1] column of start indices, and gathered; StableHLO reads each start index signed and
  clamps it into [0, 255]. A word w with w.toNat < 256 is not negative read signed, so the normalisation keeps it, and
  clamped into [0, 255] it is itself: the gather reads column `col w`. What remains is the rule's arithmetic, which
  the reference spells operation by operation exactly as `ruleVal` and `ruleBit` do.
-/
import proofs.«428948_j90202903151286_3_alg».proof.Proof.Gen.ReferenceIdeal.Read
import proofs.«428948_j90202903151286_3_alg».proof.Proof.Rule
import proofs.«428948_j90202903151286_3_alg».proof.Proof.LibGatherCols
import Idealize.ShloMosaic.Lib.StableHlo.Predicate

noncomputable section

namespace Cert.RefRule

open Cert.ReferenceIdeal Cert.ReferenceIdeal.Gen Cert.Rule Idealize.ShloMosaic Idealize.ShloMosaic.ValueIdx

/-! ## Words in range -/

/-- jnp's normalisation of an index (idx + 256 where idx < 0, read signed) keeps a word below 256. -/
theorem norm_word {w : BitVec 32} (h : w.toNat < 256) :
    Scalar.select (IntOp.cmpi .slt w 0#32) (IntOp.addi w 256#32) w = w := by
  have h0 : IntOp.cmpi .slt w 0#32 ≠ 1#1 := fun h1 => by
    have h2 := (StableHlo.Predicate.slt_iff_toNat (a := w) (b := 0#32) (by omega) (by decide)).mp h1
    exact Nat.not_lt_zero _ h2
  exact if_neg h0

/-- A word below 256, read signed and clamped into [0, 255], is its own value. -/
theorem clamp_word {w : BitVec 32} (h : w.toNat < 256) : min w.toInt.toNat (256 - 1) = w.toNat := by
  rw [StableHlo.Predicate.toInt_eq_toNat_of_lt (by omega), Int.toNat_natCast]
  omega

/-! ## The gather at an index -/

/-- The reference's gather at (b, t), over start indices that are, row by row, the words of an array in range: the
    operand at row b and at the column word t names. -/
theorem gather_read {α : Type} (x : SX.Idx → α) (idx : IVec S64x1 32) (wd : ST.Idx → BitVec 32)
    (hidx : ∀ t : Fin 64, idx (ix2 t (0 : Fin 1)) = wd (ix1 t)) (hwd : InRange wd) (b : Fin 262144) (t : Fin 64) :
    Host.gather gather_S262144x256_S64x1_S262144x64_0_1_n_n_1_1_2621441 x idx (ix2 b t)
      = x (ix2 b (col (wd (ix1 t)))) := by
  rw [Cert.Lib.gather_cols gather_S262144x256_S64x1_S262144x64_0_1_n_n_1_1_2621441 rfl rfl rfl rfl rfl x idx b t (by decide)]
  refine congrArg (fun c => x (ix2 b c)) (Fin.ext ?_)
  show min (idx (ix2 t (0 : Fin 1))).toInt.toNat (256 - 1) = (col (wd (ix1 t))).val
  rw [hidx t, clamp_word (hwd _), col_val (hwd _)]

/-! ## The six start-index columns

Each is the normalised index array as a [64, 1] column; in range, row t holds the array's word t. -/

theorem idx_v5 (x2 : (⟨S64, .i32⟩ : BufTy).Contents (Elt Ideal)) (h2 : InRange x2) (t : Fin 64) :
    Read.val_main_v5 (F := Ideal) x2 (ix2 t (0 : Fin 1)) = x2 (ix1 t) := by
  have hi : Read.idx_main_v5 (ix2 t (0 : Fin 1)) = ix1 t :=
    funext fun a => Fin.ext (by match a with | ⟨0, _⟩ => rfl)
  rw [Read.val_main_v5_apply, hi, Read.val_main_v4_apply, Read.val_main_v1_apply, Read.val_main_v3_apply,
    Read.val_main_v0_apply, Read.val_main_v2_apply, Read.val_main_c_apply, Read.val_main_c_0_apply]
  exact norm_word (h2 _)

theorem idx_v12 (x3 : (⟨S64, .i32⟩ : BufTy).Contents (Elt Ideal)) (h3 : InRange x3) (t : Fin 64) :
    Read.val_main_v12 (F := Ideal) x3 (ix2 t (0 : Fin 1)) = x3 (ix1 t) := by
  have hi : Read.idx_main_v12 (ix2 t (0 : Fin 1)) = ix1 t :=
    funext fun a => Fin.ext (by match a with | ⟨0, _⟩ => rfl)
  rw [Read.val_main_v12_apply, hi, Read.val_main_v11_apply, Read.val_main_v8_apply, Read.val_main_v10_apply,
    Read.val_main_v7_apply, Read.val_main_v9_apply, Read.val_main_c_1_apply, Read.val_main_c_2_apply]
  exact norm_word (h3 _)

theorem idx_v19 (x4 : (⟨S64, .i32⟩ : BufTy).Contents (Elt Ideal)) (h4 : InRange x4) (t : Fin 64) :
    Read.val_main_v19 (F := Ideal) x4 (ix2 t (0 : Fin 1)) = x4 (ix1 t) := by
  have hi : Read.idx_main_v19 (ix2 t (0 : Fin 1)) = ix1 t :=
    funext fun a => Fin.ext (by match a with | ⟨0, _⟩ => rfl)
  rw [Read.val_main_v19_apply, hi, Read.val_main_v18_apply, Read.val_main_v15_apply, Read.val_main_v17_apply,
    Read.val_main_v14_apply, Read.val_main_v16_apply, Read.val_main_c_3_apply, Read.val_main_c_4_apply]
  exact norm_word (h4 _)

theorem idx_v26 (x2 : (⟨S64, .i32⟩ : BufTy).Contents (Elt Ideal)) (h2 : InRange x2) (t : Fin 64) :
    Read.val_main_v26 (F := Ideal) x2 (ix2 t (0 : Fin 1)) = x2 (ix1 t) := by
  have hi : Read.idx_main_v26 (ix2 t (0 : Fin 1)) = ix1 t :=
    funext fun a => Fin.ext (by match a with | ⟨0, _⟩ => rfl)
  rw [Read.val_main_v26_apply, hi, Read.val_main_v25_apply, Read.val_main_v22_apply, Read.val_main_v24_apply,
    Read.val_main_v21_apply, Read.val_main_v23_apply, Read.val_main_c_5_apply, Read.val_main_c_6_apply]
  exact norm_word (h2 _)

theorem idx_v33 (x3 : (⟨S64, .i32⟩ : BufTy).Contents (Elt Ideal)) (h3 : InRange x3) (t : Fin 64) :
    Read.val_main_v33 (F := Ideal) x3 (ix2 t (0 : Fin 1)) = x3 (ix1 t) := by
  have hi : Read.idx_main_v33 (ix2 t (0 : Fin 1)) = ix1 t :=
    funext fun a => Fin.ext (by match a with | ⟨0, _⟩ => rfl)
  rw [Read.val_main_v33_apply, hi, Read.val_main_v32_apply, Read.val_main_v29_apply, Read.val_main_v31_apply,
    Read.val_main_v28_apply, Read.val_main_v30_apply, Read.val_main_c_7_apply, Read.val_main_c_8_apply]
  exact norm_word (h3 _)

theorem idx_v40 (x4 : (⟨S64, .i32⟩ : BufTy).Contents (Elt Ideal)) (h4 : InRange x4) (t : Fin 64) :
    Read.val_main_v40 (F := Ideal) x4 (ix2 t (0 : Fin 1)) = x4 (ix1 t) := by
  have hi : Read.idx_main_v40 (ix2 t (0 : Fin 1)) = ix1 t :=
    funext fun a => Fin.ext (by match a with | ⟨0, _⟩ => rfl)
  rw [Read.val_main_v40_apply, hi, Read.val_main_v39_apply, Read.val_main_v36_apply, Read.val_main_v38_apply,
    Read.val_main_v35_apply, Read.val_main_v37_apply, Read.val_main_c_9_apply, Read.val_main_c_10_apply]
  exact norm_word (h4 _)

/-! ## The two results -/

/-- The fuzzy result: one minus the product of (one minus the product of the first two leaves) and (one minus (one minus
    the third leaf)), each leaf the gathered column. -/
theorem ref_emb (x0 : (⟨S262144x256, .f32⟩ : BufTy).Contents (Elt Ideal)) (x2 x3 x4 : (⟨S64, .i32⟩ : BufTy).Contents (Elt Ideal))
    (h2 : InRange x2) (h3 : InRange x3) (h4 : InRange x4) : Read.val_main_v51 (F := Ideal) x0 x2 x3 x4 = emb x0 x2 x3 x4 := by
  funext o
  obtain ⟨b, t, rfl⟩ : ∃ (b : Fin 262144) (t : Fin 64), o = ix2 b t := ⟨o 0, o 1, eq_ix2 o⟩
  rw [Read.val_main_v51_apply, Read.val_main_v50_apply, Read.val_main_cst_13_apply, Read.val_main_v49_apply,
    Read.val_main_v46_apply, Read.val_main_v45_apply, Read.val_main_cst_11_apply, Read.val_main_v42_apply,
    Read.val_main_v48_apply, Read.val_main_v47_apply, Read.val_main_cst_12_apply, Read.val_main_v44_apply,
    Read.val_main_v43_apply, Read.val_main_cst_apply]
  unfold Read.val_main_v6 Read.val_main_v13 Read.val_main_v20
  rw [gather_read x0 _ x2 (idx_v5 x2 h2) h2, gather_read x0 _ x3 (idx_v12 x3 h3) h3, gather_read x0 _ x4 (idx_v19 x4 h4) h4]
  simp only [Ideal.subf_def, Ideal.mulf_def, Ideal.ofBits_def]
  rfl

/-- The crisp result: (first and second) or not third on the gathered bits, read as a number. -/
theorem ref_crisp (x1 : (⟨S262144x256, .i1⟩ : BufTy).Contents (Elt Ideal)) (x2 x3 x4 : (⟨S64, .i32⟩ : BufTy).Contents (Elt Ideal))
    (h2 : InRange x2) (h3 : InRange x3) (h4 : InRange x4) : Read.val_main_v55 (F := Ideal) x1 x2 x3 x4 = crisp x1 x2 x3 x4 := by
  funext o
  obtain ⟨b, t, rfl⟩ : ∃ (b : Fin 262144) (t : Fin 64), o = ix2 b t := ⟨o 0, o 1, eq_ix2 o⟩
  rw [Read.val_main_v55_apply, Read.val_main_v54_apply, Read.val_main_v52_apply, Read.val_main_v53_apply]
  unfold Read.val_main_v27 Read.val_main_v34 Read.val_main_v41
  rw [gather_read x1 _ x2 (idx_v26 x2 h2) h2, gather_read x1 _ x3 (idx_v33 x3 h3) h3, gather_read x1 _ x4 (idx_v40 x4 h4) h4]
  rfl

end Cert.RefRule

end
-- ==== Proof.PreFacts.lean ====
/-
  The precondition read back.  The stated precondition is a chain of array operations ending in a single bit: the
  conjunction of "every entry of x is below +infinity in absolute value" and, for each of the three index arrays, "every
  word is at least 0 and below 256 read signed".  When that bit is 1, each conjunct is 1; a reduction by `and` over a
  whole array that is 1 had a 1 at every element; and an element's bit being 1 says of an extended real that it is a
  real number, and of a word that its unsigned value is below 256.
-/
import proofs.«428948_j90202903151286_3_alg».proof.Pre_finite_inputs
import proofs.«428948_j90202903151286_3_alg».proof.Proof.Gen.Pre_finite_inputs
import proofs.«428948_j90202903151286_3_alg».proof.Proof.Rule
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.PreFacts

open Idealize.ShloMosaic Idealize.ShloMosaic.ValueIdx Cert.Pre_finite_inputs

/-- The rank-0 shape has one index. -/
instance subsingleton_S_ : Subsingleton S_.Idx := ⟨fun a b => funext fun d => d.elim0⟩

/-- A word that is at least 0 and below 256 read signed is below 256 read unsigned: a word whose signed value is not
    negative has the same unsigned value. -/
theorem toNat_lt_of_signed {w : BitVec 32} (h0 : IntOp.cmpi .sge w 0#32 = 1#1) (h1 : IntOp.cmpi .slt w 256#32 = 1#1) :
    w.toNat < 256 := by
  rw [IntOp.cmpi_sge, show (0#32 : BitVec 32).toInt = 0 from by decide] at h0
  rw [IntOp.cmpi_slt, show (256#32 : BitVec 32).toInt = 256 from by decide] at h1
  have hc := BitVec.toInt_eq_toNat_cond w
  have hw := w.isLt
  split at hc <;> omega

/-- An extended real whose absolute value (the larger of it and its negation) is below +infinity is a real number:
    +infinity fails the bound itself, and -infinity fails it through its negation. -/
theorem real_of_abs_lt_top {a : EReal}
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have htop : Ideal.ofBits .f32 0x7F800000#32 = (⊤ : EReal) := by simp [Ideal.ofBits, Ideal.ieee]
  rw [Ideal.hostAbsf_def, Ideal.cmpf_def, Ideal.absf_def, Ideal.ofBits_def, htop] at h
  induction a using EReal.rec with
  | bot => simp [Ideal.cmp] at h
  | coe r => exact ⟨r, rfl⟩
  | top => simp [Ideal.cmp] at h

/-- One index array's conjunct: if the reduction by `and` of "at least 0 and below 256" over the 64 words is 1, every
    word is below 256. -/
theorem inRange_of_all (w : IVec S64 32) {hr : S64.ReducesTo [0] S_} {hu : 0 < S_.numel}
    {hb : S_.BroadcastsInDim S64 (![] : Fin 0 → Fin S64.rank)}
    (h : Host.reduce IntOp.andi
        (andi (cmpi .sge w (broadcastInDim S64 ![] hb (constantI S_ 32 0#32)))
          (cmpi .slt w (broadcastInDim S64 ![] hb (constantI S_ 32 256#32))))
        (constantI S_ 1 1#1) hr hu ix0 = 1#1) : Cert.Rule.InRange w := by
  intro t
  have e := Host.reduce_andi_all _ _ hr hu ix0 h t
  have e' : IntOp.andi (IntOp.cmpi .sge (w t) 0#32) (IntOp.cmpi .slt (w t) 256#32) = 1#1 := e
  obtain ⟨e0, e1⟩ := IntOp.andi_eq_one.1 e'
  exact toNat_lt_of_signed e0 e1

/-- From the stated precondition to the facts the law uses: every entry of x is a real number, and every word of the
    three index arrays is below 256. -/
theorem of_pre (x : FVec Ideal S262144x256 .f32) (cb : IVec S262144x256 1) (ii jj kk : IVec S64 32)
    (h : Cert.Pre_finite_inputs.fn (F := Ideal) x cb ii jj kk = fun _ => 1#1) :
    Cert.Rule.Finite x ∧ Cert.Rule.InRange ii ∧ Cert.Rule.InRange jj ∧ Cert.Rule.InRange kk := by
  have h0 := congrFun h ix0
  dsimp only [Cert.Pre_finite_inputs.fn, Cert.Pre_finite_inputs.fn_part1] at h0
  obtain ⟨h123, hk⟩ := IntOp.andi_eq_one.1 h0
  obtain ⟨h12, hj⟩ := IntOp.andi_eq_one.1 h123
  obtain ⟨hx, hi⟩ := IntOp.andi_eq_one.1 h12
  refine ⟨fun i => ?_, inRange_of_all ii hi, inRange_of_all jj hj, inRange_of_all kk hk⟩
  exact real_of_abs_lt_top (Host.reduce_andi_all _ _ _ _ ix0 hx i)

end Cert.PreFacts
-- ==== Proof.lean ====
/-
  Every task t of the layer names three of the 256 concept columns by index words i(t), j(t), k(t) and evaluates
  Or(And(x_i, x_j), Not(x_k)): on truth values in the product t-norm, 1 - (1 - x_i x_j)(1 - (1 - x_k)), and on the
  booleans with the boolean connectives, read as a number.  The reference gathers the three columns; the kernel
  multiplies each block of 2048 rows by a 256 x 192 table of zeros and ones that its host code builds from the
  index words (1 at the named column), splitting x into three bf16 terms first.  At the ideal instance a change of
  float format is the identity, so the first term is x itself and the two corrections are x - x = 0 for real x;
  a real row times the table then picks exactly the named entries when each word lies in [0, 256), which is where
  the reference's gather reads that same column.  The precondition therefore asks the truth values to be finite and
  the index words to be in range.  The frames: each program runs to its end and leaves its arguments alone.
-/
import proofs.«428948_j90202903151286_3_alg».proof.Defs
import proofs.«428948_j90202903151286_3_alg».proof.Proof.Gen.Kernel
import proofs.«428948_j90202903151286_3_alg».proof.Proof.Gen.Kernel.Skeleton
import proofs.«428948_j90202903151286_3_alg».proof.Proof.Gen.Kernel.Launch
import proofs.«428948_j90202903151286_3_alg».proof.Proof.Gen.Kernel.Points
import proofs.«428948_j90202903151286_3_alg».proof.Proof.Gen.KernelIdeal
import proofs.«428948_j90202903151286_3_alg».proof.Proof.Gen.KernelIdeal.Skeleton
import proofs.«428948_j90202903151286_3_alg».proof.Proof.Gen.KernelIdeal.Launch
import proofs.«428948_j90202903151286_3_alg».proof.Proof.Gen.KernelIdeal.Points
import proofs.«428948_j90202903151286_3_alg».proof.Proof.Gen.ReferenceIdeal
import proofs.«428948_j90202903151286_3_alg».proof.Proof.Gen.Pre_finite_inputs
import proofs.«428948_j90202903151286_3_alg».proof.Proof.Gen.ReferenceIdeal.Run
import proofs.«428948_j90202903151286_3_alg».proof.Proof.Gen.ReferenceIdeal.Read
import proofs.«428948_j90202903151286_3_alg».proof.Proof.WordFrame
import proofs.«428948_j90202903151286_3_alg».proof.Proof.IdealFrame
import proofs.«428948_j90202903151286_3_alg».proof.Proof.KValue
import proofs.«428948_j90202903151286_3_alg».proof.Proof.RefRule
import proofs.«428948_j90202903151286_3_alg».proof.Proof.PreFacts
import Idealize.ShloMosaic.Adequacy
import Idealize.ShloMosaic.Init

noncomputable section

namespace Cert.Proof

open Idealize.ShloMosaic Idealize.ShloMosaic.TcCoe Idealize.SL.Sem Cert.Rule

/-- The program as printed runs to the end with its arguments unchanged. -/
theorem frame_word : Cert.frame_Kernel := fun m ρ _ => Cert.Kernel.Fr.frame (F := Bits) m ρ

/-- So does its idealization. -/
theorem frame_ideal : Cert.frame_KernelIdeal := fun m ρ _ => Cert.KernelIdeal.Fr.frame (F := Ideal) m ρ

/-- The reference is a straight line of host operations: its run, with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The idealization dropped two round trips through bf16 (x to bf16 and back, and the first remainder likewise):
    at the ideal instance a change of format is the identity. -/
theorem preserves : Cert.preserves_Kernel_KernelIdeal :=
  ⟨IdealRules.truncf_extf.statement _ .f32 .bf16, IdealRules.truncf_extf.statement _ .f32 .bf16⟩

/-- On real truth values and index words in [0, 256) both programs end with the fuzzy rule and the crisp rule of the
    argument arrays: the kernel because a real row times the selector table picks the three named entries (its two
    correction terms x - x vanish), the reference because its gathers read the same three columns. -/
theorem algebraic : Cert.algebraic_KernelIdeal_ReferenceIdeal := by
  intro m ρ m' ρ' hpre hagree
  have hf : ∀ c : Dev Cert.KernelIdeal.nD, _ := fun c => Cert.PreFacts.of_pre _ _ _ _ _ (hpre c)
  refine ⟨fun c => emb (Cert.KernelIdeal.Val.xs m c) (Cert.KernelIdeal.Val.wi m c) (Cert.KernelIdeal.Val.wj m c) (Cert.KernelIdeal.Val.wk m c),
    fun c => crisp (Cert.KernelIdeal.Val.bs m c) (Cert.KernelIdeal.Val.wi m c) (Cert.KernelIdeal.Val.wj m c) (Cert.KernelIdeal.Val.wk m c),
    Cert.KernelIdeal.Val.run m ρ (fun c => (hf c).1) (fun c => (hf c).2.1) (fun c => (hf c).2.2.1) (fun c => (hf c).2.2.2), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v51_eq, (hagree c).1, (hagree c).2.2.1, (hagree c).2.2.2.1, (hagree c).2.2.2.2]
    exact Cert.RefRule.ref_emb _ _ _ _ (hf c).2.1 (hf c).2.2.1 (hf c).2.2.2
  · rw [(h c).2.1, Cert.ReferenceIdeal.Read.val_main_v55_eq, (hagree c).2.1, (hagree c).2.2.1, (hagree c).2.2.2.1, (hagree c).2.2.2.2]
    exact Cert.RefRule.ref_crisp _ _ _ _ (hf c).2.1 (hf c).2.2.1 (hf c).2.2.2

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
